-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S16384x128 : Shape := ⟨2, ![16384, 128]⟩
abbrev S262144x128 : Shape := ⟨2, ![262144, 128]⟩
abbrev S256x128 : Shape := ⟨2, ![256, 128]⟩
abbrev S128x64 : Shape := ⟨2, ![128, 64]⟩
abbrev S64x8 : Shape := ⟨2, ![64, 8]⟩
abbrev S8x2 : Shape := ⟨2, ![8, 2]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S262144x128 : S_.BroadcastsInDim S262144x128 (![] : Fin 0 → Fin S262144x128.rank)
  reducesTo_S262144x128_S_d0_1 : S262144x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x8 : S_.BroadcastsInDim S64x8 (![] : Fin 0 → Fin S64x8.rank)
  reducesTo_S64x8_S_d0_1 : S64x8.ReducesTo [0, 1] S_
  bcast_S_S8x2 : S_.BroadcastsInDim S8x2 (![] : Fin 0 → Fin S8x2.rank)
  reducesTo_S8x2_S_d0_1 : S8x2.ReducesTo [0, 1] S_

variable [Facts]

def fn_part3 {F : FTy → Type} [FloatOps F] (main_v48 : IVec S_ 1) (main_v49 : FVec F S8x2 .f32) (main_v50 : FVec F S8x2 .f32) : IVec S_ 1 :=
  let main_v51 : IVec S8x2 1 := cmpf .olt main_v49 main_v50
  let main_c_19 : IVec S_ 1 := constantI S_ 1 1#1
  let main_v52 : IVec S_ 1 := (fun x v => Host.reduce IntOp.andi x v reducesTo_S8x2_S_d0_1 h_S_) main_v51 main_c_19
  let main_v53 : IVec S_ 1 := andi main_v48 main_v52
  main_v53

def fn_part2 {F : FTy → Type} [FloatOps F] (main_arg7 : FVec F S256x128 .f32) (main_arg8 : FVec F S128x64 .f32) (main_arg9 : FVec F S64x8 .f32) (main_arg10 : FVec F S8x2 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64x8 .f32 := Host.absf main_arg9
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8x2 .f32 := Host.absf main_arg10
  let main_cst_18 : FVec F S_ .f32 := constant S_ .f32 0x7F800000#32
  let main_v50 : FVec F S8x2 .f32 := broadcastInDim S8x2 ![] bcast_S_S8x2 main_cst_18
  fn_part3 (F := F) main_v48 main_v49 main_v50

def fn_part1 {F : FTy → Type} [FloatOps F] (main_arg4 : FVec F S16384x128 .f32) (main_arg5 : FVec F S262144x128 .f32) (main_arg6 : FVec F S256x128 .f32) (main_arg7 : FVec F S256x128 .f32) (main_arg8 : FVec F S128x64 .f32) (main_arg9 : FVec F S64x8 .f32) (main_arg10 : FVec F S8x2 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S16384x128 .f32 := Host.absf main_arg4
  let main_cst_6 : FVec F S_ .f32 := constant S_ .f32 0x7F800000#32
  let main_v20 : FVec F S16384x128 .f32 := broadcastInDim S16384x128 ![] bcast_S_S16384x128 main_cst_6
  let main_v21 : IVec S16384x128 1 := cmpf .olt main_v19 main_v20
  let main_c_7 : IVec S_ 1 := constantI S_ 1 1#1
  let main_v22 : IVec S_ 1 := (fun x v => Host.reduce IntOp.andi x v reducesTo_S16384x128_S_d0_1 h_S_) main_v21 main_c_7
  let main_v23 : IVec S_ 1 := andi main_v18 main_v22
  let main_v24 : FVec F S262144x128 .f32 := Host.absf main_arg5
  let main_cst_8 : FVec F S_ .f32 := constant S_ .f32 0x7F800000#32
  let main_v25 : FVec F S262144x128 .f32 := broadcastInDim S262144x128 ![] bcast_S_S262144x128 main_cst_8
  let main_v26 : IVec S262144x128 1 := cmpf .olt main_v24 main_v25
  let main_c_9 : IVec S_ 1 := constantI S_ 1 1#1
  let main_v27 : IVec S_ 1 := (fun x v => Host.reduce IntOp.andi x v reducesTo_S262144x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128 .f32) (main_arg1 : FVec F S16384x128 .f32) (main_arg2 : FVec F S262144x128 .f32) (main_arg3 : FVec F S1024x128 .f32) (main_arg4 : FVec F S16384x128 .f32) (main_arg5 : FVec F S262144x128 .f32) (main_arg6 : FVec F S256x128 .f32) (main_arg7 : FVec F S256x128 .f32) (main_arg8 : FVec F S128x64 .f32) (main_arg9 : FVec F S64x8 .f32) (main_arg10 : FVec F S8x2 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_arg9 main_arg10 main_v13 main_v16
-- ==== Kernel.lean ====
abbrev S1024x128 : Shape := ⟨2, ![1024, 128]⟩
abbrev S16384x128 : Shape := ⟨2, ![16384, 128]⟩
abbrev S262144x128 : Shape := ⟨2, ![262144, 128]⟩
abbrev S256x128 : Shape := ⟨2, ![256, 128]⟩
abbrev S128x64 : Shape := ⟨2, ![128, 64]⟩
abbrev S64x8 : Shape := ⟨2, ![64, 8]⟩
abbrev S8x2 : Shape := ⟨2, ![8, 2]⟩
abbrev S1024x2 : Shape := ⟨2, ![1024, 2]⟩
abbrev S512x128 : Shape := ⟨2, ![512, 128]⟩
abbrev S8192x128 : Shape := ⟨2, ![8192, 128]⟩
abbrev S128x128 : Shape := ⟨2, ![128, 128]⟩
abbrev S512x16x128 : Shape := ⟨3, ![512, 16, 128]⟩
abbrev S32x16x128 : Shape := ⟨3, ![32, 16, 128]⟩
abbrev S32x128 : Shape := ⟨2, ![32, 128]⟩
abbrev S1024x64 : Shape := ⟨2, ![1024, 64]⟩
abbrev S1024x8 : Shape := ⟨2, ![1024, 8]⟩
abbrev S1024 : Shape := ⟨1, ![1024]⟩
abbrev S1024x1 : Shape := ⟨2, ![1024, 1]⟩

abbrev nBuf : Space → Nat
  | .hbm => 12
  | .vmem => 18
  | .smem => 0
  | _ => 0

abbrev bufTy : (tb : Table) → Fin (tcTables nBuf tb) → BufTy
  | .hbm, ⟨0, _⟩ => ⟨S1024x128, .f32⟩
  | .hbm, ⟨1, _⟩ => ⟨S16384x128, .f32⟩
  | .hbm, ⟨2, _⟩ => ⟨S262144x128, .f32⟩
  | .hbm, ⟨3, _⟩ => ⟨S1024x128, .f32⟩
  | .hbm, ⟨4, _⟩ => ⟨S16384x128, .f32⟩
  | .hbm, ⟨5, _⟩ => ⟨S262144x128, .f32⟩
  | .hbm, ⟨6, _⟩ => ⟨S256x128, .f32⟩
  | .hbm, ⟨7, _⟩ => ⟨S256x128, .f32⟩
  | .hbm, ⟨8, _⟩ => ⟨S128x64, .f32⟩
  | .hbm, ⟨9, _⟩ => ⟨S64x8, .f32⟩
  | .hbm, ⟨10, _⟩ => ⟨S8x2, .f32⟩
  | .hbm, ⟨11, _⟩ => ⟨S1024x2, .f32⟩
  | .local _ .vmem, ⟨0, _⟩ => ⟨S1024x128, .f32⟩
  | .local _ .vmem, ⟨1, _⟩ => ⟨S512x128, .f32⟩
  | .local _ .vmem, ⟨2, _⟩ => ⟨S512x128, .f32⟩
  | .local _ .vmem, ⟨3, _⟩ => ⟨S8192x128, .f32⟩
  | .local _ .vmem, ⟨4, _⟩ => ⟨S8192x128, .f32⟩
  | .local _ .vmem, ⟨5, _⟩ => ⟨S1024x128, .f32⟩
  | .local _ .vmem, ⟨6, _⟩ => ⟨S512x128, .f32⟩
  | .local _ .vmem, ⟨7, _⟩ => ⟨S512x128, .f32⟩
  | .local _ .vmem, ⟨8, _⟩ => ⟨S8192x128, .f32⟩
  | .local _ .vmem, ⟨9, _⟩ => ⟨S8192x128, .f32⟩
  | .local _ .vmem, ⟨10, _⟩ => ⟨S256x128, .f32⟩
  | .local _ .vmem, ⟨11, _⟩ => ⟨S256x128, .f32⟩
  | .local _ .vmem, ⟨12, _⟩ => ⟨S128x64, .f32⟩
  | .local _ .vmem, ⟨13, _⟩ => ⟨S64x8, .f32⟩
  | .local _ .vmem, ⟨14, _⟩ => ⟨S8x2, .f32⟩
  | .local _ .vmem, ⟨15, _⟩ => ⟨S1024x2, .f32⟩
  | .local _ .vmem, ⟨16, _⟩ => ⟨S1024x128, .f32⟩
  | .local _ .vmem, ⟨17, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c32_i32 : BitVec 32 := 32#32
  let v24 : BitVec 32 := Scalar.muli arg0 c32_i32
  let v25 : Index := Scalar.indexCast v24
  let c0_19 : Index := 0#32
  ![v25.toNat, 0]
def k0_cond1 (i : grid0.Coords) : BitVec 1 :=
  let arg0 : BitVec 32 := BitVec.ofNat 32 (i 0).val
  let c31_i32 : BitVec 32 := 31#32
  let v38 : BitVec 1 := Scalar.cmpi .eq arg0 c31_i32
  let v39 : BitVec 32 := Scalar.extui v38
  let c0_i32 : BitVec 32 := 0#32
  let v40 : BitVec 1 := Scalar.cmpi .ne v39 c0_i32
  v40

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S8192x128_S8192x128_0_0 : ∀ a, (![0, 0] : Fin 2 → Nat) a + S8192x128.size a ≤ S8192x128.size a
  h_S8192x128 : 0 < S8192x128.numel
  shapeCasts_S8192x128_S512x16x128 : S8192x128.ShapeCasts S512x16x128
  reduces_S512x16x128_S512x128 : S512x16x128.Reduces [1] S512x128
  inb_S512x128_S512x128_0_0 : ∀ a, (![0, 0] : Fin 2 → Nat) a + S512x128.size a ≤ S512x128.size a
  h_S512x128 : 0 < S512x128.numel
  shapeCasts_S512x128_S32x16x128 : S512x128.ShapeCasts S32x16x128
  reduces_S32x16x128_S32x128 : S32x16x128.Reduces [1] S32x128
  h_S32x128 : 0 < S32x128.numel
  shapeCasts_S32x128_S32x128 : S32x128.ShapeCasts S32x128
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S64x8_S64x8_0_0 : ∀ a, (![0, 0] : Fin 2 → Nat) a + S64x8.size a ≤ S64x8.size a
  h_S64x8 : 0 < S64x8.numel
  inb_S8x2_S8x2_0_0 : ∀ a, (![0, 0] : Fin 2 → Nat) a + S8x2.size a ≤ S8x2.size a
  h_S8x2 : 0 < S8x2.numel
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  dot_S512x128_S128x128_S512x128_1_0_0_1_n_n_wf : DotDims.WF S512x128 S128x128 S512x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x64_S64x8_S1024x8_1_0_0_1_n_n_wf : DotDims.WF S1024x64 S64x8 S1024x8 [1] [0] [0] [1] [] []
  dot_S1024x8_S8x2_S1024x2_1_0_0_1_n_n_wf : DotDims.WF S1024x8 S8x2 S1024x2 [1] [0] [0] [1] [] []
  hrank0 : 0 < grid0.rank
  k0_off1_inb : ∀ i : grid0.Coords, ∀ a, (k0_off1 i) a + S32x128.size a ≤ S1024x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S16384x128.size a
  hwx0_4 : ∀ i : grid0.Coords, EltTy.bits .f32 = 32 ∨ (Rect.block (s := S16384x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S262144x128.size a
  hwx0_5 : ∀ i : grid0.Coords, EltTy.bits .f32 = 32 ∨ (Rect.block (s := S262144x128) S8192x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x8.size a ≤ S64x8.size a
  hwx0_9 : ∀ i : grid0.Coords, EltTy.bits .f32 = 32 ∨ (Rect.block (s := S64x8) S64x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x2.size a ≤ S8x2.size a
  hwx0_10 : ∀ i : grid0.Coords, EltTy.bits .f32 = 32 ∨ (Rect.block (s := S8x2) S8x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x2.size a ≤ S1024x2.size a
  hwx0_11 : ∀ i : grid0.Coords, EltTy.bits .f32 = 32 ∨ (Rect.block (s := S1024x2) S1024x2.size (cc0_transform_11 i) (hinb0_11 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x8_S8x2_S1024x2_1_0_0_1_n_n : DotDims S1024x8 S8x2 S1024x2 where
  lhsContracting := [1]
  rhsContracting := [0]
  lhsNonContracting := [0]
  rhsNonContracting := [1]
  lhsBatch := []
  rhsBatch := []
  wf := dot_S1024x8_S8x2_S1024x2_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8192x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1024x2.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond1 i == 1#1) | ⟨_ + 12, h⟩ => absurd h (Nat.not_lt.2 (Nat.le_add_left _ _))

class Facts : Prop extends Facts₀ where

variable [Facts]
-- ==== ReferenceIdeal.lean ====
abbrev S1024x128 : Shape := ⟨2, ![1024, 128]⟩
abbrev S16384x128 : Shape := ⟨2, ![16384, 128]⟩
abbrev S262144x128 : Shape := ⟨2, ![262144, 128]⟩
abbrev S256x128 : Shape := ⟨2, ![256, 128]⟩
abbrev S128x64 : Shape := ⟨2, ![128, 64]⟩
abbrev S64x8 : Shape := ⟨2, ![64, 8]⟩
abbrev S8x2 : Shape := ⟨2, ![8, 2]⟩
abbrev S16384x16x128 : Shape := ⟨3, ![16384, 16, 128]⟩
abbrev S_ : Shape := ⟨0, ![]⟩
abbrev S16384x256 : Shape := ⟨2, ![16384, 256]⟩
abbrev S1024x16x128 : Shape := ⟨3, ![1024, 16, 128]⟩
abbrev S1024x256 : Shape := ⟨2, ![1024, 256]⟩
abbrev S1024x64 : Shape := ⟨2, ![1024, 64]⟩
abbrev S1024x8 : Shape := ⟨2, ![1024, 8]⟩
abbrev S1024x2 : Shape := ⟨2, ![1024, 2]⟩
abbrev S1024 : Shape := ⟨1, ![1024]⟩
abbrev S1024x1 : Shape := ⟨2, ![1024, 1]⟩

abbrev nBuf : Space → Nat
  | .hbm => 71
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S16384x128, .f32⟩
  | .hbm, ⟨2, _⟩ => ⟨S262144x128, .f32⟩
  | .hbm, ⟨3, _⟩ => ⟨S1024x128, .f32⟩
  | .hbm, ⟨4, _⟩ => ⟨S16384x128, .f32⟩
  | .hbm, ⟨5, _⟩ => ⟨S262144x128, .f32⟩
  | .hbm, ⟨6, _⟩ => ⟨S256x128, .f32⟩
  | .hbm, ⟨7, _⟩ => ⟨S256x128, .f32⟩
  | .hbm, ⟨8, _⟩ => ⟨S128x64, .f32⟩
  | .hbm, ⟨9, _⟩ => ⟨S64x8, .f32⟩
  | .hbm, ⟨10, _⟩ => ⟨S8x2, .f32⟩
  | .hbm, ⟨11, _⟩ => ⟨S16384x16x128, .f32⟩
  | .hbm, ⟨12, _⟩ => ⟨S_, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x16x128, .f32⟩
  | .hbm, ⟨18, _⟩ => ⟨S_, .f32⟩
  | .hbm, ⟨19, _⟩ => ⟨S16384x128, .f32⟩
  | .hbm, ⟨20, _⟩ => ⟨S_, .f32⟩
  | .hbm, ⟨21, _⟩ => ⟨S16384x128, .f32⟩
  | .hbm, ⟨22, _⟩ => ⟨S16384x128, .f32⟩
  | .hbm, ⟨23, _⟩ => ⟨S16384x256, .f32⟩
  | .hbm, ⟨24, _⟩ => ⟨S16384x256, .f32⟩
  | .hbm, ⟨25, _⟩ => ⟨S16384x128, .f32⟩
  | .hbm, ⟨26, _⟩ => ⟨S16384x128, .f32⟩
  | .hbm, ⟨27, _⟩ => ⟨S1024x16x128, .f32⟩
  | .hbm, ⟨28, _⟩ => ⟨S_, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x16x128, .f32⟩
  | .hbm, ⟨34, _⟩ => ⟨S_, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | .hbm, ⟨39, _⟩ => ⟨S1024x256, .f32⟩
  | .hbm, ⟨40, _⟩ => ⟨S1024x256, .f32⟩
  | .hbm, ⟨41, _⟩ => ⟨S1024x128, .f32⟩
  | .hbm, ⟨42, _⟩ => ⟨S1024x128, .f32⟩
  | .hbm, ⟨43, _⟩ => ⟨S1024x256, .f32⟩
  | .hbm, ⟨44, _⟩ => ⟨S1024x128, .f32⟩
  | .hbm, ⟨45, _⟩ => ⟨S_, .f32⟩
  | .hbm, ⟨46, _⟩ => ⟨S1024x128, .f32⟩
  | .hbm, ⟨47, _⟩ => ⟨S1024x128, .f32⟩
  | .hbm, ⟨48, _⟩ => ⟨S1024x64, .f32⟩
  | .hbm, ⟨49, _⟩ => ⟨S_, .f32⟩
  | .hbm, ⟨50, _⟩ => ⟨S1024x64, .f32⟩
  | .hbm, ⟨51, _⟩ => ⟨S1024x64, .f32⟩
  | .hbm, ⟨52, _⟩ => ⟨S1024x8, .f32⟩
  | .hbm, ⟨53, _⟩ => ⟨S_, .f32⟩
  | .hbm, ⟨54, _⟩ => ⟨S1024x8, .f32⟩
  | .hbm, ⟨55, _⟩ => ⟨S1024x8, .f32⟩
  | .hbm, ⟨56, _⟩ => ⟨S1024x2, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024x1, .f32⟩
  | .hbm, ⟨63, _⟩ => ⟨S1024x2, .f32⟩
  | .hbm, ⟨64, _⟩ => ⟨S1024x2, .f32⟩
  | .hbm, ⟨65, _⟩ => ⟨S1024x2, .f32⟩
  | .hbm, ⟨66, _⟩ => ⟨S_, .f32⟩
  | .hbm, ⟨67, _⟩ => ⟨S1024, .f32⟩
  | .hbm, ⟨68, _⟩ => ⟨S1024x1, .f32⟩
  | .hbm, ⟨69, _⟩ => ⟨S1024x2, .f32⟩
  | .hbm, ⟨70, _⟩ => ⟨S1024x2, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_cst : Ref sig .tc := ⟨.hbm, 45, rfl⟩
abbrev main_call0_v0 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]

class Facts₀ : Prop where
  shapeCasts_S262144x128_S16384x16x128 : S262144x128.ShapeCasts S16384x16x128
  reducesTo_S16384x16x128_S16384x128_d1 : S16384x16x128.ReducesTo [1] S16384x128
  h_S_ : 0 < S_.numel
  bcast_S_S16384x128 : S_.BroadcastsInDim S16384x128 (![] : Fin 0 → Fin S16384x128.rank)
  concatenates_S16384x128_S16384x128_S16384x256_d1 : Shape.Concatenates [S16384x128, S16384x128] S16384x256 1
  shapeCasts_S16384x128_S1024x16x128 : S16384x128.ShapeCasts S1024x16x128
  reducesTo_S1024x16x128_S1024x128_d1 : S1024x16x128.ReducesTo [1] S1024x128
  bcast_S_S1024x128 : S_.BroadcastsInDim S1024x128 (![] : Fin 0 → Fin S1024x128.rank)
  concatenates_S1024x128_S1024x128_S1024x256_d1 : Shape.Concatenates [S1024x128, S1024x128] S1024x256 1
  bcast_S_S1024x64 : S_.BroadcastsInDim S1024x64 (![] : Fin 0 → Fin S1024x64.rank)
  bcast_S_S1024x8 : S_.BroadcastsInDim S1024x8 (![] : Fin 0 → Fin S1024x8.rank)
  reducesTo_S1024x2_S1024_d1 : S1024x2.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  dot_S16384x256_S256x128_S16384x128_1_0_0_1_n_n_wf : DotDims.WF S16384x256 S256x128 S16384x128 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x8_S1024x8_1_0_0_1_n_n_wf : DotDims.WF S1024x64 S64x8 S1024x8 [1] [0] [0] [1] [] []
  dot_S1024x8_S8x2_S1024x2_1_0_0_1_n_n_wf : DotDims.WF S1024x8 S8x2 S1024x2 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x8_S8x2_S1024x2_1_0_0_1_n_n : DotDims S1024x8 S8x2 S1024x2 where
  lhsContracting := [1]
  rhsContracting := [0]
  lhsNonContracting := [0]
  rhsNonContracting := [1]
  lhsBatch := []
  rhsBatch := []
  wf := dot_S1024x8_S8x2_S1024x2_1_0_0_1_n_n_wf

class Facts : Prop extends Facts₀ where

variable [Facts]
-- ==== Proof.KB.Setup.lean ====
/-
  The kernel's schedule and what each grid point computes, as pure functions of the staged blocks.

  The grid has 32 points. Point `t` stages rows `[512 t, 512 t + 512)` of the first-hop neighbour features and rows
  `[8192 t, 8192 t + 8192)` of the second-hop ones, averages the second-hop rows sixteen at a time, applies the layer
  `[n, mean] · w2` as two products (the upper and the lower 128 rows of `w2`), averages the 512 results sixteen at a
  time, and stores the 32 rows so obtained at rows `[32 t, 32 t + 32)` of a 1024-row table it keeps between points — one
  table for the source side, one for the destination side. Only the last point (`t = 31`) reads the two tables whole and
  runs the second layer and the classifier, storing the output block.
-/
import proofs.«127706_g9603546873884_cont_9to1c4b_371_2_alg».proof.Proof.Gen.Kernel.Frame
import proofs.«127706_g9603546873884_cont_9to1c4b_371_2_alg».proof.Proof.Gen.Kernel.Skeleton
import Idealize.ShloMosaic.Lib.WritesUnit
import Idealize.ShloMosaic.Lib.Pipeline.Value

set_option maxRecDepth 16384

noncomputable section

namespace Cert.Kernel.Trk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- The branch that runs the network's head. -/
abbrev atLast (i : grid0.Coords) : Prop := k0_cond1 i = 1#1

/-- It is taken at the grid's last point and at no other. -/
theorem atLast_iff : ∀ t : Fin cfg0.N, atLast (grid0.coords t) ↔ t.val = 31 :=
  (by decide +kernel : ∀ t : Fin grid0.N, atLast (grid0.coords t) ↔ t.val = 31)

/-- Point `t` addresses the kept tables at row `32 t`. -/
theorem rowOff_eq : ∀ t : Fin cfg0.N, ∀ a : Fin 2, k0_off1 (grid0.coords t) a = (![32 * t.val, 0] : Fin 2 → ℕ) a :=
  (by decide +kernel : ∀ t : Fin grid0.N, ∀ a : Fin 2, k0_off1 (grid0.coords t) a = (![32 * t.val, 0] : Fin 2 → ℕ) a)

/-- Every input window is stored into by no one and read at every point: none is ever idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel

/-- The output window is stored at the last point only: idle before it, -/
theorem out_idle : ∀ t : Fin cfg0.N, t.val ≠ 31 → cfg0.idle 11 (grid0.coords t) = true :=
  (by decide +kernel : ∀ t : Fin grid0.N, t.val ≠ 31 → cfg0.idle 11 (grid0.coords t) = true)
/-- live at it, -/
theorem out_live : ∀ t : Fin cfg0.N, t.val = 31 → cfg0.idle 11 (grid0.coords t) = false :=
  (by decide +kernel : ∀ t : Fin grid0.N, t.val = 31 → cfg0.idle 11 (grid0.coords t) = false)
/-- and written back there only. -/
theorem out_noflush : ∀ t : Fin cfg0.N, t.val ≠ 31 → (cfg0.win 11).flush t = false :=
  (by decide +kernel : ∀ t : Fin grid0.N, t.val ≠ 31 → win0_11.flush t = false)
theorem out_flush : ∀ t : Fin cfg0.N, t.val = 31 → (cfg0.win 11).flush t = true :=
  (by decide +kernel : ∀ t : Fin grid0.N, t.val = 31 → win0_11.flush t = true)

/-! ## The staging buffers the body is called with, and the two kept tables -/

abbrev stg0 (t : Fin cfg0.N) : Memref sig .tc .vmem S1024x128 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x128 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S8192x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1024x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S512x128 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S8192x128 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S256x128 .f32 := win0_6.stage (cfg0.slots t 6)
abbrev stg6_whole (t : Fin cfg0.N) : (stg6 t).IsWhole := hstage0_6 ((cfg0.slots t 6).cast nbuf0_6)
abbrev stg7 (t : Fin cfg0.N) : Memref sig .tc .vmem S256x128 .f32 := win0_7.stage (cfg0.slots t 7)
abbrev stg7_whole (t : Fin cfg0.N) : (stg7 t).IsWhole := hstage0_7 ((cfg0.slots t 7).cast nbuf0_7)
abbrev stg8 (t : Fin cfg0.N) : Memref sig .tc .vmem S128x64 .f32 := win0_8.stage (cfg0.slots t 8)
abbrev stg8_whole (t : Fin cfg0.N) : (stg8 t).IsWhole := hstage0_8 ((cfg0.slots t 8).cast nbuf0_8)
abbrev stg9 (t : Fin cfg0.N) : Memref sig .tc .vmem S64x8 .f32 := win0_9.stage (cfg0.slots t 9)
abbrev stg9_whole (t : Fin cfg0.N) : (stg9 t).IsWhole := hstage0_9 ((cfg0.slots t 9).cast nbuf0_9)
abbrev stg10 (t : Fin cfg0.N) : Memref sig .tc .vmem S8x2 .f32 := win0_10.stage (cfg0.slots t 10)
abbrev stg10_whole (t : Fin cfg0.N) : (stg10 t).IsWhole := hstage0_10 ((cfg0.slots t 10).cast nbuf0_10)
abbrev stg11 (t : Fin cfg0.N) : Memref sig .tc .vmem S1024x2 .f32 := win0_11.stage (cfg0.slots t 11)
abbrev stg11_whole (t : Fin cfg0.N) : (stg11 t).IsWhole := hstage0_11 ((cfg0.slots t 11).cast nbuf0_11)

/-- The source-side table (`sacc`) and the destination-side one (`dacc`): whole scoped buffers of the kernel's own. -/
abbrev accS : Memref sig .tc .vmem S1024x128 .f32 := Memref.whole cc0_scratch0
abbrev accD : Memref sig .tc .vmem S1024x128 .f32 := Memref.whole cc0_scratch1

/-- The region's class invariant with the two tables spelt as memrefs owned at some contents. -/
theorem classInv_eq (c : Dev nD) :
    (Pipeline.ΦA spec0 c : sProp 𝕄)
      = iprop(iprop((∃ d, owns (c : Thread nD τ) accS fullShare d) ∗ (∃ d, owns (c : Thread nD τ) accD fullShare d)) ∗ (∃ r, prngReg c r)) := by
  unfold Pipeline.ΦA; rw [scopedRest0_eq]; simp only [accS, accD, owns_whole]; try rfl

/-! ## Rows of a table overwritten -/

/-- The table `s` with the 32 rows from row `off 0` on replaced by `w` (for `off 1 = 0`: whole rows). -/
def putRows (off : Fin 2 → ℕ) (w : Vec F S32x128 .f32) (s : Vec F S1024x128 .f32) : Vec F S1024x128 .f32 :=
  fun y => if h : ∀ a : Fin 2, off a ≤ (y a).val ∧ (y a).val < off a + S32x128.size a then
      w (Rect.unitLocal (s := S1024x128) (off := off) (size := S32x128.size) y h)
    else s y

/-- One store of a 32×128 piece through a whole memref, read back: `putRows`. -/
theorem read_put {arg : Memref sig .tc .vmem S1024x128 .f32} (harg : arg.IsWhole) (off : Fin 2 → ℕ)
    (inb : ∀ a, off a + S32x128.size a ≤ S1024x128.size a) (w : Vec F S32x128 .f32) (s : Vec F S1024x128 .f32) :
    arg.view.read (Elt F) (arg.view.writes (Elt F) (harg.unread s) [⟨Rect.unit (s := S1024x128) off S32x128.size inb, w⟩])
      = putRows off w s := by
  funext y
  rw [View.read_writes_cons_unit arg.view (harg.unread s) inb w [] y rfl]
  unfold putRows
  simp only [View.writes_nil, harg.read_unread]

/-! ## What a point computes -/

/-- The upper 128 rows of a 256-row weight block, and the lower 128, as the body's loads read them. -/
def rowsTop (x : Vec F S256x128 .f32) : Vec F S128x128 .f32 :=
  View.ld x (Rect.unit (s := S256x128) ![0, 0] S128x128.size inb_S256x128_S128x128_0_0)
def rowsBot (x : Vec F S256x128 .f32) : Vec F S128x128 .f32 :=
  View.ld x (Rect.unit (s := S256x128) ![128, 0] S128x128.size inb_S256x128_S128x128_128_0)

/-- The 32 source-side rows a point stores: from `w2`, its second-hop block `nn` and its first-hop block `n`. -/
def tileS (w2 : Vec F S256x128 .f32) (nn : Vec F S8192x128 .f32) (n : Vec F S512x128 .f32) : Vec F S32x128 .f32 :=
  k0_pay5 (rowsTop w2) (rowsBot w2) nn n

/-- The 32 destination-side rows a point stores. -/
def tileD (w2 : Vec F S256x128 .f32) (nn : Vec F S8192x128 .f32) (n : Vec F S512x128 .f32) : Vec F S32x128 .f32 :=
  k0_pay1 (k0_pay6 (rowsTop w2) (rowsBot w2) nn n) (k0_pay7 (F := F))

/-- The output block the last point stores, from the two root feature blocks, the weights and the two tables. -/
def headOut (src dst : Vec F S1024x128 .f32) (w2 d1 : Vec F S256x128 .f32) (d2 : Vec F S128x64 .f32) (d3 : Vec F S64x8 .f32)
    (d4 : Vec F S8x2 .f32) (sS sD : Vec F S1024x128 .f32) : Vec F S1024x2 .f32 :=
  k0_pay2 (k0_pay3 (rowsTop w2) (rowsBot w2) src sS dst sD (rowsTop d1) (rowsBot d1) d2 d3 d4)
    (k0_pay4 (rowsTop w2) (rowsBot w2) src sS dst sD (rowsTop d1) (rowsBot d1) d2 d3 d4)

/-! ## The staged blocks, typed -/

variable (m : (ℓ : Loc nD τ sig) → Buf (Elt F) ℓ)

abbrev blkSrc (c : Dev nD) (t : Fin cfg0.N) : Vec F S1024x128 .f32 := iblk m c 0 t
abbrev blkSneg (c : Dev nD) (t : Fin cfg0.N) : Vec F S512x128 .f32 := iblk m c 1 t
abbrev blkSnn (c : Dev nD) (t : Fin cfg0.N) : Vec F S8192x128 .f32 := iblk m c 2 t
abbrev blkDst (c : Dev nD) (t : Fin cfg0.N) : Vec F S1024x128 .f32 := iblk m c 3 t
abbrev blkDneg (c : Dev nD) (t : Fin cfg0.N) : Vec F S512x128 .f32 := iblk m c 4 t
abbrev blkDnn (c : Dev nD) (t : Fin cfg0.N) : Vec F S8192x128 .f32 := iblk m c 5 t
abbrev blkW2 (c : Dev nD) (t : Fin cfg0.N) : Vec F S256x128 .f32 := iblk m c 6 t
abbrev blkD1 (c : Dev nD) (t : Fin cfg0.N) : Vec F S256x128 .f32 := iblk m c 7 t
abbrev blkD2 (c : Dev nD) (t : Fin cfg0.N) : Vec F S128x64 .f32 := iblk m c 8 t
abbrev blkD3 (c : Dev nD) (t : Fin cfg0.N) : Vec F S64x8 .f32 := iblk m c 9 t
abbrev blkD4 (c : Dev nD) (t : Fin cfg0.N) : Vec F S8x2 .f32 := iblk m c 10 t

end Cert.Kernel.Trk

end
-- ==== Proof.KB.Tables.lean ====
/-
  The two kept tables as the inputs determine them. Row `r` of a table is written by grid point `r / 32`, as row
  `r % 32` of the 32 averaged rows that point computes from its own blocks; so the whole table is a function of the staged
  blocks alone, and after the first `n` points the table in memory agrees with it on rows `[0, 32 n)`.
-/
import proofs.«127706_g9603546873884_cont_9to1c4b_371_2_alg».proof.Proof.KB.Setup

set_option maxRecDepth 16384

noncomputable section

namespace Cert.Kernel.Trk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid point that writes row `y 0` of a table. -/
def ptOf (y : S1024x128.Idx) : Fin cfg0.N := ⟨(y 0).val / 32, by
  have h : (y 0).val < 1024 := (y 0).isLt
  have hN : cfg0.N = 32 := N_0
  omega⟩

/-- That row's place among the point's 32 rows, the column unchanged. -/
def inTile (y : S1024x128.Idx) : S32x128.Idx := fun a => match a with
  | ⟨0, _⟩ => ⟨(y 0).val % 32, Nat.mod_lt _ (by decide)⟩
  | ⟨1, _⟩ => ⟨(y 1).val, (y 1).isLt⟩

/-- The source-side table, complete. -/
def tblS (c : Dev nD) : Vec F S1024x128 .f32 := fun y =>
  tileS (blkW2 m c (ptOf y)) (blkSnn m c (ptOf y)) (blkSneg m c (ptOf y)) (inTile y)

/-- The destination-side table, complete. -/
def tblD (c : Dev nD) : Vec F S1024x128 .f32 := fun y =>
  tileD (blkW2 m c (ptOf y)) (blkDnn m c (ptOf y)) (blkDneg m c (ptOf y)) (inTile y)

/-- `s` agrees with the table `T` on the rows the first `n` points have written. -/
def Upto (n : ℕ) (s T : Vec F S1024x128 .f32) : Prop := ∀ y : S1024x128.Idx, (y 0).val < 32 * n → s y = T y

/-- The offset at which point `t` addresses the tables, as a function of the axis. -/
private theorem rowOff_fun (t : Fin cfg0.N) : k0_off1 (grid0.coords t) = (![32 * t.val, 0] : Fin 2 → ℕ) :=
  funext (rowOff_eq t)

/-- One point's store extends the agreement by its 32 rows, for any family `g` of 32-row tiles indexed by the grid
point: a row below `32 t` is not touched and keeps the agreement it had; a row in `[32 t, 32 t + 32)` is written by
point `t = row / 32` at local row `row - 32 t = row % 32`, which is what the complete table holds there. -/
private theorem upto_step (t : Fin cfg0.N) (s : Vec F S1024x128 .f32) (g : Fin cfg0.N → Vec F S32x128 .f32)
    (h : Upto t.val s (fun y => g (ptOf y) (inTile y))) :
    Upto (t.val + 1) (putRows (k0_off1 (grid0.coords t)) (g t) s) (fun y => g (ptOf y) (inTile y)) := by
  intro y hy
  have h0 : (y 0).val < 1024 := (y 0).isLt
  have h1 : (y 1).val < 128 := (y 1).isLt
  rw [rowOff_fun t]
  unfold putRows
  by_cases hlt : (y 0).val < 32 * t.val
  · -- the row lies below the rows this point stores
    rw [dif_neg]
    · exact h y hlt
    · intro hc
      have hc0 : 32 * t.val ≤ (y 0).val := (hc 0).1
      omega
  · -- the row is one of the 32 this point stores
    have hmem : ∀ a : Fin 2, (![32 * t.val, 0] : Fin 2 → ℕ) a ≤ (y a).val
        ∧ (y a).val < (![32 * t.val, 0] : Fin 2 → ℕ) a + S32x128.size a := by
      refine Fin.forall_fin_two.mpr ⟨⟨?_, ?_⟩, ⟨?_, ?_⟩⟩
      · show 32 * t.val ≤ (y 0).val
        omega
      · show (y 0).val < 32 * t.val + 32
        omega
      · show 0 ≤ (y 1).val
        omega
      · show (y 1).val < 0 + 128
        omega
    rw [dif_pos hmem]
    have hpt : ptOf y = t := Fin.ext (by
      show (y 0).val / 32 = t.val
      omega)
    show g t (Rect.unitLocal (s := S1024x128) (off := ![32 * t.val, 0]) (size := S32x128.size) y hmem)
      = g (ptOf y) (inTile y)
    rw [hpt]
    congr 1
    funext a
    match a with
    | ⟨0, _⟩ =>
      refine Fin.ext ?_
      show (y 0).val - 32 * t.val = (y 0).val % 32
      omega
    | ⟨1, _⟩ =>
      refine Fin.ext ?_
      show (y 1).val - 0 = (y 1).val
      omega

/-- Before the first point nothing is asked. -/
theorem upto_zero (s T : Vec F S1024x128 .f32) : Upto 0 s T := fun y h => absurd h (by omega)

/-- After all 32 points the table is complete. -/
theorem upto_all (s T : Vec F S1024x128 .f32) (h : Upto 32 s T) : s = T := by
  funext y
  refine h y ?_
  have h0 : (y 0).val < 1024 := (y 0).isLt
  omega

/-- Point `t`'s store extends the agreement by its 32 rows: source side, -/
theorem upto_stepS (c : Dev nD) (t : Fin cfg0.N) (s : Vec F S1024x128 .f32) (h : Upto t.val s (tblS m c)) :
    Upto (t.val + 1) (putRows (k0_off1 (grid0.coords t)) (tileS (blkW2 m c t) (blkSnn m c t) (blkSneg m c t)) s) (tblS m c) :=
  upto_step t s (fun t => tileS (blkW2 m c t) (blkSnn m c t) (blkSneg m c t)) h

/-- destination side. -/
theorem upto_stepD (c : Dev nD) (t : Fin cfg0.N) (s : Vec F S1024x128 .f32) (h : Upto t.val s (tblD m c)) :
    Upto (t.val + 1) (putRows (k0_off1 (grid0.coords t)) (tileD (blkW2 m c t) (blkDnn m c t) (blkDneg m c t)) s) (tblD m c) :=
  upto_step t s (fun t => tileD (blkW2 m c t) (blkDnn m c t) (blkDneg m c t)) h

/-- The output block the last point stores, over the complete tables. -/
def outBlk (c : Dev nD) (t : Fin cfg0.N) : Vec F S1024x2 .f32 :=
  headOut (blkSrc m c t) (blkDst m c t) (blkW2 m c t) (blkD1 m c t) (blkD2 m c t) (blkD3 m c t) (blkD4 m c t) (tblS m c) (tblD m c)

end Cert.Kernel.Trk

end
-- ==== Proof.KB.StepRun.lean ====
/-
  The body at a point that is not the last: it reads its two first-hop blocks, its two second-hop blocks and `w2`, and
  overwrites rows `[32 t, 32 t + 32)` of each kept table with the point's 32 averaged rows; every other row of the
  tables, and every block it read, is as it found it. The head's branch is not taken, so nothing else is touched.
-/
import proofs.«127706_g9603546873884_cont_9to1c4b_371_2_alg».proof.Proof.KB.Setup

set_option maxRecDepth 16384

noncomputable section

namespace Cert.Kernel.Trk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zz : (![0, 0] : Fin 2 → ℕ) = fun _ => 0 := by
  funext a; match a with | ⟨0, _⟩ => rfl | ⟨1, _⟩ => rfl

set_option maxHeartbeats 1000000 in
/-- The body's triple away from the last point, over the seven buffers it touches there. -/
theorem run_step (c : Dev nD) (i : grid0.Coords) (arg1 : Memref sig .tc .vmem S1024x128 .f32) (harg1 : arg1.IsWhole) (arg2 : Memref sig .tc .vmem S512x128 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S8192x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S128x64 .f32) (harg9 : arg9.IsWhole) (arg10 : Memref sig .tc .vmem S64x8 .f32) (harg10 : arg10.IsWhole) (arg11 : Memref sig .tc .vmem S8x2 .f32) (harg11 : arg11.IsWhole) (arg12 : Memref sig .tc .vmem S1024x2 .f32) (harg12 : arg12.IsWhole) (arg13 : Memref sig .tc .vmem S1024x128 .f32) (harg13 : arg13.IsWhole) (arg14 : Memref sig .tc .vmem S1024x128 .f32) (harg14 : arg14.IsWhole) (hc : ¬atLast i)
    (x1 : Vec F S512x128 .f32) (x2 : Vec F S8192x128 .f32) (x4 : Vec F S512x128 .f32) (x5 : Vec F S8192x128 .f32)
    (x6 : Vec F S256x128 .f32) (s0 s1 : Vec F S1024x128 .f32) :
      ∀ (E : Set ℕ) (K : PUnit → sProp 𝕄),
        iprop(owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare x6 ∗ owns (c : Thread nD τ) arg13 fullShare s0 ∗ owns (c : Thread nD τ) arg14 fullShare s1
            ∗ (iprop(owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare x6
                ∗ owns (c : Thread nD τ) arg13 fullShare (putRows (k0_off1 i) (tileS x6 x2 x1) s0)
                ∗ owns (c : Thread nD τ) arg14 fullShare (putRows (k0_off1 i) (tileD x6 x5 x4) s1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part2_eq_skeleton]
    unfold owns
    iintro ⟨⟨%f1, %hf1, H1⟩, ⟨%f2, %hf2, H2⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf1; obtain rfl := harg3.eq_unread hf2; obtain rfl := harg5.eq_unread hf4
    obtain rfl := harg6.eq_unread hf5; obtain rfl := harg7.eq_unread hf6
    obtain rfl := harg13.eq_unread hfs0; obtain rfl := harg14.eq_unread hfs1
    sl_exec (disch := first | exact hc)
    sl_step
    sl_unfold_words
    iapply Hk
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; swap; · iexact HS0
      ipureintro
      simp only [View.readAt_eq_ld, harg2.read_unread, harg3.read_unread, harg7.read_unread,
        View.ld_unit_zero (S := S8192x128) zz, View.ld_unit_zero (S := S512x128) zz]
      exact read_put harg13 _ _ _ s0
    iexists _; isplitr; swap; · iexact HS1
    ipureintro
    simp only [View.readAt_eq_ld, harg5.read_unread, harg6.read_unread, harg7.read_unread,
      View.ld_unit_zero (S := S8192x128) zz, View.ld_unit_zero (S := S512x128) zz]
    exact read_put harg14 _ _ _ s1

end Cert.Kernel.Trk

end
-- ==== Proof.KB.LastRun.lean ====
/-
  The body at the last point: after overwriting rows `[992, 1024)` of the two kept tables like every other point, it reads
  both tables whole, together with the two root feature blocks and the weights `w2`, `d1`, … `d4`, and stores the
  classifier's output block; every block it read is as it found it.
-/
import proofs.«127706_g9603546873884_cont_9to1c4b_371_2_alg».proof.Proof.KB.Setup

set_option maxRecDepth 16384

noncomputable section

namespace Cert.Kernel.Trk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zz : (![0, 0] : Fin 2 → ℕ) = fun _ => 0 := by
  funext a; match a with | ⟨0, _⟩ => rfl | ⟨1, _⟩ => rfl

set_option maxHeartbeats 2000000 in
/-- The body's triple at the last point. -/
theorem run_last (c : Dev nD) (i : grid0.Coords) (arg1 : Memref sig .tc .vmem S1024x128 .f32) (harg1 : arg1.IsWhole) (arg2 : Memref sig .tc .vmem S512x128 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S8192x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S128x64 .f32) (harg9 : arg9.IsWhole) (arg10 : Memref sig .tc .vmem S64x8 .f32) (harg10 : arg10.IsWhole) (arg11 : Memref sig .tc .vmem S8x2 .f32) (harg11 : arg11.IsWhole) (arg12 : Memref sig .tc .vmem S1024x2 .f32) (harg12 : arg12.IsWhole) (arg13 : Memref sig .tc .vmem S1024x128 .f32) (harg13 : arg13.IsWhole) (arg14 : Memref sig .tc .vmem S1024x128 .f32) (harg14 : arg14.IsWhole) (hc : atLast i)
    (x0 : Vec F S1024x128 .f32) (x1 : Vec F S512x128 .f32) (x2 : Vec F S8192x128 .f32) (x3 : Vec F S1024x128 .f32) (x4 : Vec F S512x128 .f32) (x5 : Vec F S8192x128 .f32) (x6 : Vec F S256x128 .f32) (x7 : Vec F S256x128 .f32) (x8 : Vec F S128x64 .f32) (x9 : Vec F S64x8 .f32) (x10 : Vec F S8x2 .f32) (s0 s1 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare s0 ∗ owns (c : Thread nD τ) arg14 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ owns (c : Thread nD τ) arg12 fullShare (headOut x0 x3 x6 x7 x8 x9 x10 (putRows (k0_off1 i) (tileS x6 x2 x1) s0) (putRows (k0_off1 i) (tileD x6 x5 x4) s1))
                ∗ owns (c : Thread nD τ) arg13 fullShare (putRows (k0_off1 i) (tileS x6 x2 x1) s0)
                ∗ owns (c : Thread nD τ) arg14 fullShare (putRows (k0_off1 i) (tileD x6 x5 x4) s1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg13.eq_unread hfs0; obtain rfl := harg14.eq_unread hfs1
    sl_exec (disch := first | exact hc)
    sl_step
    sl_unfold_words
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      rw [View.read_writes_eq_canon _ _ _ (fun y => ⟨_, List.mem_singleton_self _, View.mem_set_unit_zero zz inb_S1024x2_S1024x2_0_0 y⟩),
        View.canon_unit_zero zz inb_S1024x2_S1024x2_0_0]
      simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x128) zz, View.ld_unit_zero (S := S512x128) zz, View.ld_unit_zero (S := S8192x128) zz, View.ld_unit_zero (S := S128x64) zz, View.ld_unit_zero (S := S64x8) zz, View.ld_unit_zero (S := S8x2) zz]
      exact congrArg₂ (fun a b => headOut x0 x3 x6 x7 x8 x9 x10 a b)
        (read_put harg13 (k0_off1 i) (k0_off1_inb i) (tileS x6 x2 x1) s0)
        (read_put harg14 (k0_off1 i) (k0_off1_inb i) (tileD x6 x5 x4) s1)
    isplitl [HS0]
    · iexists _; isplitr; swap; · iexact HS0
      ipureintro
      simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x128) zz, View.ld_unit_zero (S := S512x128) zz, View.ld_unit_zero (S := S8192x128) zz, View.ld_unit_zero (S := S128x64) zz, View.ld_unit_zero (S := S64x8) zz, View.ld_unit_zero (S := S8x2) zz]
      exact read_put harg13 _ _ _ s0
    iexists _; isplitr; swap; · iexact HS1
    ipureintro
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x128) zz, View.ld_unit_zero (S := S512x128) zz, View.ld_unit_zero (S := S8192x128) zz, View.ld_unit_zero (S := S128x64) zz, View.ld_unit_zero (S := S64x8) zz, View.ld_unit_zero (S := S8x2) zz]
    exact read_put harg14 _ _ _ s1

end Cert.Kernel.Trk

end
-- ==== Proof.KB.Track.lean ====
/-
  The pipeline's proof data and its run. Between points the region holds the two tables at contents that agree with
  the complete tables on the rows written so far (nothing is known of the other rows: the tables start at whatever the
  buffers held); each input window's staging buffer holds its block; the output window's buffer is left as found until the
  last point stores the output block, computed from the two tables, which by then are complete.
-/
import proofs.«127706_g9603546873884_cont_9to1c4b_371_2_alg».proof.Proof.KB.Tables
import proofs.«127706_g9603546873884_cont_9to1c4b_371_2_alg».proof.Proof.KB.StepRun
import proofs.«127706_g9603546873884_cont_9to1c4b_371_2_alg».proof.Proof.KB.LastRun

set_option maxRecDepth 16384

noncomputable section

namespace Cert.Kernel.Trk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant before point `n`: each table at some contents that agree with the complete table on rows
    `[0, 32 n)`, and the generator register at some state. -/
def PhiT (c : Dev nD) (n : ℕ) : sProp 𝕄 :=
  iprop(iprop((∃ s, ⌜Upto n s (tblS m c)⌝ ∗ owns (c : Thread nD τ) accS fullShare s)
      ∗ (∃ s, ⌜Upto n s (tblD m c)⌝ ∗ owns (c : Thread nD τ) accD fullShare s)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_out (c : Dev nD) (t : Fin cfg0.N) : (dats m 0 c).after 11 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-! ## What each window is handed back as -/

/-- A window that is read at every point is never idle: the body hands its buffer back at the point's block. -/
private theorem leaves_0 (c : Dev nD) (t : Fin cfg0.N) :
    (dats m 0 c).leavesExact 0 t = owns (c : Thread nD τ) (stg0 t) fullShare (iblk m c 0 t) := by
  unfold Dat.leavesExact; rw [live_0 t, after_0]
private theorem leaves_1 (c : Dev nD) (t : Fin cfg0.N) :
    (dats m 0 c).leavesExact 1 t = owns (c : Thread nD τ) (stg1 t) fullShare (iblk m c 1 t) := by
  unfold Dat.leavesExact; rw [live_1 t, after_1]
private theorem leaves_2 (c : Dev nD) (t : Fin cfg0.N) :
    (dats m 0 c).leavesExact 2 t = owns (c : Thread nD τ) (stg2 t) fullShare (iblk m c 2 t) := by
  unfold Dat.leavesExact; rw [live_2 t, after_2]
private theorem leaves_3 (c : Dev nD) (t : Fin cfg0.N) :
    (dats m 0 c).leavesExact 3 t = owns (c : Thread nD τ) (stg3 t) fullShare (iblk m c 3 t) := by
  unfold Dat.leavesExact; rw [live_3 t, after_3]
private theorem leaves_4 (c : Dev nD) (t : Fin cfg0.N) :
    (dats m 0 c).leavesExact 4 t = owns (c : Thread nD τ) (stg4 t) fullShare (iblk m c 4 t) := by
  unfold Dat.leavesExact; rw [live_4 t, after_4]
private theorem leaves_5 (c : Dev nD) (t : Fin cfg0.N) :
    (dats m 0 c).leavesExact 5 t = owns (c : Thread nD τ) (stg5 t) fullShare (iblk m c 5 t) := by
  unfold Dat.leavesExact; rw [live_5 t, after_5]
private theorem leaves_6 (c : Dev nD) (t : Fin cfg0.N) :
    (dats m 0 c).leavesExact 6 t = owns (c : Thread nD τ) (stg6 t) fullShare (iblk m c 6 t) := by
  unfold Dat.leavesExact; rw [live_6 t, after_6]
private theorem leaves_7 (c : Dev nD) (t : Fin cfg0.N) :
    (dats m 0 c).leavesExact 7 t = owns (c : Thread nD τ) (stg7 t) fullShare (iblk m c 7 t) := by
  unfold Dat.leavesExact; rw [live_7 t, after_7]
private theorem leaves_8 (c : Dev nD) (t : Fin cfg0.N) :
    (dats m 0 c).leavesExact 8 t = owns (c : Thread nD τ) (stg8 t) fullShare (iblk m c 8 t) := by
  unfold Dat.leavesExact; rw [live_8 t, after_8]
private theorem leaves_9 (c : Dev nD) (t : Fin cfg0.N) :
    (dats m 0 c).leavesExact 9 t = owns (c : Thread nD τ) (stg9 t) fullShare (iblk m c 9 t) := by
  unfold Dat.leavesExact; rw [live_9 t, after_9]
private theorem leaves_10 (c : Dev nD) (t : Fin cfg0.N) :
    (dats m 0 c).leavesExact 10 t = owns (c : Thread nD τ) (stg10 t) fullShare (iblk m c 10 t) := by
  unfold Dat.leavesExact; rw [live_10 t, after_10]

/-- Away from the last point the output's buffer is idle and not written back: it comes back as it was found. -/
private theorem leaves_out_idle (c : Dev nD) (t : Fin cfg0.N) (h : t.val ≠ 31) :
    (dats m 0 c).leavesExact 11 t
      = iprop(∃ d, owns (c : Thread nD τ) (stg11 t) fullShare ((dats m 0 c).before 11 t d)) :=
  Dat.leavesExact_idle (dats m 0 c) 11 t (out_idle t h) (out_noflush t h)

/-- At the last point it is live: it comes back at the output block. -/
private theorem leaves_out_last (c : Dev nD) (t : Fin cfg0.N) (h : t.val = 31) :
    (dats m 0 c).leavesExact 11 t = owns (c : Thread nD τ) (stg11 t) fullShare (outBlk m c t) := by
  unfold Dat.leavesExact; rw [out_live t h, after_out]

/-- The invariant at a point's start and at its end, as `PhiT` at the point's number and the next. -/
private theorem Phi_castSucc (c : Dev nD) (t : Fin cfg0.N) : (dats m 0 c).Φ t.castSucc = PhiT m c t.val := rfl
private theorem Phi_succ (c : Dev nD) (t : Fin cfg0.N) : (dats m 0 c).Φ t.succ = PhiT m c (t.val + 1) := rfl

set_option maxHeartbeats 4000000 in
/-- The body away from the last point: the step's triple takes the two first-hop blocks, the two second-hop blocks, `w2`
    and the two tables; the other windows are not touched and go round unchanged. Each table comes back with the point's
    32 rows stored, so its agreement with the complete table reaches row `32 (t + 1)`. -/
private theorem sound_step (c : Dev nD) (t : Fin cfg0.N) (hl : t.val ≠ 31) :
    bodyPre m c t ⊢ wp frame (wpE (defs₀ (F := F)) Variants.none c none) Set.univ (bodyAt0 t) (fun _ => bodyPost m c t) := by
  have hnl : ¬atLast (grid0.coords t) := (atLast_iff t).not.mpr hl
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [leaves_0, leaves_1, leaves_2, leaves_3, leaves_4, leaves_5, leaves_6, leaves_7, leaves_8, leaves_9, leaves_10,
    leaves_out_idle m c t hl, Phi_castSucc, Phi_succ]
  unfold PhiT
  iintro ⟨⟨⟨⟨%s0, %h0, HS0⟩, ⟨%s1, %h1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (run_step c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) accS (Memref.isWhole_whole _) accD (Memref.isWhole_whole _) hnl
    (iblk m c 1 t) (iblk m c 2 t) (iblk m c 4 t) (iblk m c 5 t) (iblk m c 6 t) s0 s1 Set.univ _)
  isplitl [H1]; · iexact H1
  isplitl [H2]; · iexact H2
  isplitl [H4]; · iexact H4
  isplitl [H5]; · iexact H5
  isplitl [H6]; · iexact H6
  isplitl [HS0]; · iexact HS0
  isplitl [HS1]; · iexact HS1
  iintro ⟨H1, H2, H4, H5, H6, HS0, HS1⟩
  isplitl [HS0 HS1 Hg]
  · isplitl [HS0 HS1]
    · isplitl [HS0]
      · iexists _; isplitr
        · ipureintro; exact upto_stepS m c t s0 h0
        iexact HS0
      · iexists _; isplitr
        · ipureintro; exact upto_stepD m c t s1 h1
        iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The body at the last point: the head's triple takes every window and the two tables. The tables it reads back have
    the last 32 rows stored on top of an agreement up to row `32 · 31`, so they agree with the complete tables on all
    `32 · 32 = 1024` rows: they ARE the complete tables, and the block stored is `outBlk`. -/
private theorem sound_last (c : Dev nD) (t : Fin cfg0.N) (hl : t.val = 31) :
    bodyPre m c t ⊢ wp frame (wpE (defs₀ (F := F)) Variants.none c none) Set.univ (bodyAt0 t) (fun _ => bodyPost m c t) := by
  have hal : atLast (grid0.coords t) := (atLast_iff t).mpr hl
  have e32 : t.val + 1 = 32 := by omega
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [leaves_0, leaves_1, leaves_2, leaves_3, leaves_4, leaves_5, leaves_6, leaves_7, leaves_8, leaves_9, leaves_10,
    leaves_out_last m c t hl, Phi_castSucc, Phi_succ]
  unfold PhiT outBlk
  iintro ⟨⟨⟨⟨%s0, %h0, HS0⟩, ⟨%s1, %h1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have eS : putRows (k0_off1 (grid0.coords t)) (tileS (iblk m c 6 t) (iblk m c 2 t) (iblk m c 1 t)) s0 = tblS m c := by
    have h := upto_stepS m c t s0 h0
    rw [e32] at h
    exact upto_all _ _ h
  have eD : putRows (k0_off1 (grid0.coords t)) (tileD (iblk m c 6 t) (iblk m c 5 t) (iblk m c 4 t)) s1 = tblD m c := by
    have h := upto_stepD m c t s1 h1
    rw [e32] at h
    exact upto_all _ _ h
  iapply (run_last c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) accS (Memref.isWhole_whole _) accD (Memref.isWhole_whole _) hal
    (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  rw [eS, eD]
  iintro ⟨H0, H1, H2, H3, H4, H5, H6, H7, H8, H9, H10, H11, HS0, HS1⟩
  isplitl [HS0 HS1 Hg]
  · isplitl [HS0 HS1]
    · isplitl [HS0]
      · iexists _; isplitr
        · ipureintro; exact fun _ _ => rfl
        iexact HS0
      · iexists _; isplitr
        · ipureintro; exact fun _ _ => rfl
        iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The body at any point. Away from the last point the step's triple applies, the output's buffer is handed back as
    found, and each table's agreement grows by the point's 32 rows. At the last point the tables it reads back are the
    complete ones, so the block it stores is `outBlk`. -/
theorem sound_body (c : Dev nD) (t : Fin cfg0.N) :
    bodyPre m c t ⊢ wp frame (wpE (defs₀ (F := F)) Variants.none c none) Set.univ (bodyAt0 t) (fun _ => bodyPost m c t) := by
  by_cases hl : t.val = 31
  · exact sound_last m c t hl
  · exact sound_step m c t hl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the tables yet. -/
theorem hin (c : Dev nD) : Pipeline.ΦA spec0 c ⊢ (dats m 0 c).Φ 0 := by
  rw [classInv_eq, show (dats m 0 c).Φ 0 = PhiT m c 0 from rfl]
  unfold PhiT
  iintro ⟨⟨⟨%d0, H0⟩, ⟨%d1, H1⟩⟩, Hg⟩
  isplitl [H0 H1]
  · isplitl [H0]
    · iexists d0; isplitr
      · ipureintro; exact upto_zero _ _
      iexact H0
    · iexists d1; isplitr
      · ipureintro; exact upto_zero _ _
      iexact H1
  · iexact Hg

/-- After the last point the invariant gives the class's back: what the tables hold is forgotten. -/
theorem hout (c : Dev nD) : (dats m 0 c).Φ (Fin.last cfg0.N) ⊢ Pipeline.ΦA spec0 c := by
  rw [classInv_eq, show (dats m 0 c).Φ (Fin.last cfg0.N) = PhiT m c cfg0.N from rfl]
  unfold PhiT
  iintro ⟨⟨⟨%s0, -, H0⟩, ⟨%s1, -, H1⟩⟩, Hg⟩
  isplitl [H0 H1]
  · isplitl [H0]
    · iexists s0; iexact H0
    · iexists s1; iexact H1
  · iexact Hg

set_option backward.isDefEq.respectTransparency.types false in
/-- Every weakly fair execution of @main terminates; every array of the pipeline ends at what the library computes from
    the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Trk

end
-- ==== Proof.KI.Setup.lean ====
/-
  The kernel's schedule and what each grid point computes, as pure functions of the staged blocks.

  The grid has 32 points. Point `t` stages rows `[512 t, 512 t + 512)` of the first-hop neighbour features and rows
  `[8192 t, 8192 t + 8192)` of the second-hop ones, averages the second-hop rows sixteen at a time, applies the layer
  `[n, mean] · w2` as two products (the upper and the lower 128 rows of `w2`), averages the 512 results sixteen at a
  time, and stores the 32 rows so obtained at rows `[32 t, 32 t + 32)` of a 1024-row table it keeps between points — one
  table for the source side, one for the destination side. Only the last point (`t = 31`) reads the two tables whole and
  runs the second layer and the classifier, storing the output block.
-/
import proofs.«127706_g9603546873884_cont_9to1c4b_371_2_alg».proof.Proof.Gen.KernelIdeal.Frame
import proofs.«127706_g9603546873884_cont_9to1c4b_371_2_alg».proof.Proof.Gen.KernelIdeal.Skeleton
import Idealize.ShloMosaic.Lib.WritesUnit
import Idealize.ShloMosaic.Lib.Pipeline.Value

set_option maxRecDepth 16384

noncomputable section

namespace Cert.KernelIdeal.Trk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- The branch that runs the network's head. -/
abbrev atLast (i : grid0.Coords) : Prop := k0_cond1 i = 1#1

/-- It is taken at the grid's last point and at no other. -/
theorem atLast_iff : ∀ t : Fin cfg0.N, atLast (grid0.coords t) ↔ t.val = 31 :=
  (by decide +kernel : ∀ t : Fin grid0.N, atLast (grid0.coords t) ↔ t.val = 31)

/-- Point `t` addresses the kept tables at row `32 t`. -/
theorem rowOff_eq : ∀ t : Fin cfg0.N, ∀ a : Fin 2, k0_off1 (grid0.coords t) a = (![32 * t.val, 0] : Fin 2 → ℕ) a :=
  (by decide +kernel : ∀ t : Fin grid0.N, ∀ a : Fin 2, k0_off1 (grid0.coords t) a = (![32 * t.val, 0] : Fin 2 → ℕ) a)

/-- Every input window is stored into by no one and read at every point: none is ever idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel

/-- The output window is stored at the last point only: idle before it, -/
theorem out_idle : ∀ t : Fin cfg0.N, t.val ≠ 31 → cfg0.idle 11 (grid0.coords t) = true :=
  (by decide +kernel : ∀ t : Fin grid0.N, t.val ≠ 31 → cfg0.idle 11 (grid0.coords t) = true)
/-- live at it, -/
theorem out_live : ∀ t : Fin cfg0.N, t.val = 31 → cfg0.idle 11 (grid0.coords t) = false :=
  (by decide +kernel : ∀ t : Fin grid0.N, t.val = 31 → cfg0.idle 11 (grid0.coords t) = false)
/-- and written back there only. -/
theorem out_noflush : ∀ t : Fin cfg0.N, t.val ≠ 31 → (cfg0.win 11).flush t = false :=
  (by decide +kernel : ∀ t : Fin grid0.N, t.val ≠ 31 → win0_11.flush t = false)
theorem out_flush : ∀ t : Fin cfg0.N, t.val = 31 → (cfg0.win 11).flush t = true :=
  (by decide +kernel : ∀ t : Fin grid0.N, t.val = 31 → win0_11.flush t = true)

/-! ## The staging buffers the body is called with, and the two kept tables -/

abbrev stg0 (t : Fin cfg0.N) : Memref sig .tc .vmem S1024x128 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x128 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S8192x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1024x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S512x128 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S8192x128 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S256x128 .f32 := win0_6.stage (cfg0.slots t 6)
abbrev stg6_whole (t : Fin cfg0.N) : (stg6 t).IsWhole := hstage0_6 ((cfg0.slots t 6).cast nbuf0_6)
abbrev stg7 (t : Fin cfg0.N) : Memref sig .tc .vmem S256x128 .f32 := win0_7.stage (cfg0.slots t 7)
abbrev stg7_whole (t : Fin cfg0.N) : (stg7 t).IsWhole := hstage0_7 ((cfg0.slots t 7).cast nbuf0_7)
abbrev stg8 (t : Fin cfg0.N) : Memref sig .tc .vmem S128x64 .f32 := win0_8.stage (cfg0.slots t 8)
abbrev stg8_whole (t : Fin cfg0.N) : (stg8 t).IsWhole := hstage0_8 ((cfg0.slots t 8).cast nbuf0_8)
abbrev stg9 (t : Fin cfg0.N) : Memref sig .tc .vmem S64x8 .f32 := win0_9.stage (cfg0.slots t 9)
abbrev stg9_whole (t : Fin cfg0.N) : (stg9 t).IsWhole := hstage0_9 ((cfg0.slots t 9).cast nbuf0_9)
abbrev stg10 (t : Fin cfg0.N) : Memref sig .tc .vmem S8x2 .f32 := win0_10.stage (cfg0.slots t 10)
abbrev stg10_whole (t : Fin cfg0.N) : (stg10 t).IsWhole := hstage0_10 ((cfg0.slots t 10).cast nbuf0_10)
abbrev stg11 (t : Fin cfg0.N) : Memref sig .tc .vmem S1024x2 .f32 := win0_11.stage (cfg0.slots t 11)
abbrev stg11_whole (t : Fin cfg0.N) : (stg11 t).IsWhole := hstage0_11 ((cfg0.slots t 11).cast nbuf0_11)

/-- The source-side table (`sacc`) and the destination-side one (`dacc`): whole scoped buffers of the kernel's own. -/
abbrev accS : Memref sig .tc .vmem S1024x128 .f32 := Memref.whole cc0_scratch0
abbrev accD : Memref sig .tc .vmem S1024x128 .f32 := Memref.whole cc0_scratch1

/-- The region's class invariant with the two tables spelt as memrefs owned at some contents. -/
theorem classInv_eq (c : Dev nD) :
    (Pipeline.ΦA spec0 c : sProp 𝕄)
      = iprop(iprop((∃ d, owns (c : Thread nD τ) accS fullShare d) ∗ (∃ d, owns (c : Thread nD τ) accD fullShare d)) ∗ (∃ r, prngReg c r)) := by
  unfold Pipeline.ΦA; rw [scopedRest0_eq]; simp only [accS, accD, owns_whole]; try rfl

/-! ## Rows of a table overwritten -/

/-- The table `s` with the 32 rows from row `off 0` on replaced by `w` (for `off 1 = 0`: whole rows). -/
def putRows (off : Fin 2 → ℕ) (w : Vec F S32x128 .f32) (s : Vec F S1024x128 .f32) : Vec F S1024x128 .f32 :=
  fun y => if h : ∀ a : Fin 2, off a ≤ (y a).val ∧ (y a).val < off a + S32x128.size a then
      w (Rect.unitLocal (s := S1024x128) (off := off) (size := S32x128.size) y h)
    else s y

/-- One store of a 32×128 piece through a whole memref, read back: `putRows`. -/
theorem read_put {arg : Memref sig .tc .vmem S1024x128 .f32} (harg : arg.IsWhole) (off : Fin 2 → ℕ)
    (inb : ∀ a, off a + S32x128.size a ≤ S1024x128.size a) (w : Vec F S32x128 .f32) (s : Vec F S1024x128 .f32) :
    arg.view.read (Elt F) (arg.view.writes (Elt F) (harg.unread s) [⟨Rect.unit (s := S1024x128) off S32x128.size inb, w⟩])
      = putRows off w s := by
  funext y
  rw [View.read_writes_cons_unit arg.view (harg.unread s) inb w [] y rfl]
  unfold putRows
  simp only [View.writes_nil, harg.read_unread]

/-! ## What a point computes -/

/-- The upper 128 rows of a 256-row weight block, and the lower 128, as the body's loads read them. -/
def rowsTop (x : Vec F S256x128 .f32) : Vec F S128x128 .f32 :=
  View.ld x (Rect.unit (s := S256x128) ![0, 0] S128x128.size inb_S256x128_S128x128_0_0)
def rowsBot (x : Vec F S256x128 .f32) : Vec F S128x128 .f32 :=
  View.ld x (Rect.unit (s := S256x128) ![128, 0] S128x128.size inb_S256x128_S128x128_128_0)

/-- The 32 source-side rows a point stores: from `w2`, its second-hop block `nn` and its first-hop block `n`. -/
def tileS (w2 : Vec F S256x128 .f32) (nn : Vec F S8192x128 .f32) (n : Vec F S512x128 .f32) : Vec F S32x128 .f32 :=
  k0_pay5 (rowsTop w2) (rowsBot w2) nn n

/-- The 32 destination-side rows a point stores. -/
def tileD (w2 : Vec F S256x128 .f32) (nn : Vec F S8192x128 .f32) (n : Vec F S512x128 .f32) : Vec F S32x128 .f32 :=
  k0_pay1 (k0_pay6 (rowsTop w2) (rowsBot w2) nn n) (k0_pay7 (F := F))

/-- The output block the last point stores, from the two root feature blocks, the weights and the two tables. -/
def headOut (src dst : Vec F S1024x128 .f32) (w2 d1 : Vec F S256x128 .f32) (d2 : Vec F S128x64 .f32) (d3 : Vec F S64x8 .f32)
    (d4 : Vec F S8x2 .f32) (sS sD : Vec F S1024x128 .f32) : Vec F S1024x2 .f32 :=
  k0_pay2 (k0_pay3 (rowsTop w2) (rowsBot w2) src sS dst sD (rowsTop d1) (rowsBot d1) d2 d3 d4)
    (k0_pay4 (rowsTop w2) (rowsBot w2) src sS dst sD (rowsTop d1) (rowsBot d1) d2 d3 d4)

/-! ## The staged blocks, typed -/

variable (m : (ℓ : Loc nD τ sig) → Buf (Elt F) ℓ)

abbrev blkSrc (c : Dev nD) (t : Fin cfg0.N) : Vec F S1024x128 .f32 := iblk m c 0 t
abbrev blkSneg (c : Dev nD) (t : Fin cfg0.N) : Vec F S512x128 .f32 := iblk m c 1 t
abbrev blkSnn (c : Dev nD) (t : Fin cfg0.N) : Vec F S8192x128 .f32 := iblk m c 2 t
abbrev blkDst (c : Dev nD) (t : Fin cfg0.N) : Vec F S1024x128 .f32 := iblk m c 3 t
abbrev blkDneg (c : Dev nD) (t : Fin cfg0.N) : Vec F S512x128 .f32 := iblk m c 4 t
abbrev blkDnn (c : Dev nD) (t : Fin cfg0.N) : Vec F S8192x128 .f32 := iblk m c 5 t
abbrev blkW2 (c : Dev nD) (t : Fin cfg0.N) : Vec F S256x128 .f32 := iblk m c 6 t
abbrev blkD1 (c : Dev nD) (t : Fin cfg0.N) : Vec F S256x128 .f32 := iblk m c 7 t
abbrev blkD2 (c : Dev nD) (t : Fin cfg0.N) : Vec F S128x64 .f32 := iblk m c 8 t
abbrev blkD3 (c : Dev nD) (t : Fin cfg0.N) : Vec F S64x8 .f32 := iblk m c 9 t
abbrev blkD4 (c : Dev nD) (t : Fin cfg0.N) : Vec F S8x2 .f32 := iblk m c 10 t

end Cert.KernelIdeal.Trk

end
-- ==== Proof.KI.Tables.lean ====
/-
  The two kept tables as the inputs determine them. Row `r` of a table is written by grid point `r / 32`, as row
  `r % 32` of the 32 averaged rows that point computes from its own blocks; so the whole table is a function of the staged
  blocks alone, and after the first `n` points the table in memory agrees with it on rows `[0, 32 n)`.
-/
import proofs.«127706_g9603546873884_cont_9to1c4b_371_2_alg».proof.Proof.KI.Setup

set_option maxRecDepth 16384

noncomputable section

namespace Cert.KernelIdeal.Trk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid point that writes row `y 0` of a table. -/
def ptOf (y : S1024x128.Idx) : Fin cfg0.N := ⟨(y 0).val / 32, by
  have h : (y 0).val < 1024 := (y 0).isLt
  have hN : cfg0.N = 32 := N_0
  omega⟩

/-- That row's place among the point's 32 rows, the column unchanged. -/
def inTile (y : S1024x128.Idx) : S32x128.Idx := fun a => match a with
  | ⟨0, _⟩ => ⟨(y 0).val % 32, Nat.mod_lt _ (by decide)⟩
  | ⟨1, _⟩ => ⟨(y 1).val, (y 1).isLt⟩

/-- The source-side table, complete. -/
def tblS (c : Dev nD) : Vec F S1024x128 .f32 := fun y =>
  tileS (blkW2 m c (ptOf y)) (blkSnn m c (ptOf y)) (blkSneg m c (ptOf y)) (inTile y)

/-- The destination-side table, complete. -/
def tblD (c : Dev nD) : Vec F S1024x128 .f32 := fun y =>
  tileD (blkW2 m c (ptOf y)) (blkDnn m c (ptOf y)) (blkDneg m c (ptOf y)) (inTile y)

/-- `s` agrees with the table `T` on the rows the first `n` points have written. -/
def Upto (n : ℕ) (s T : Vec F S1024x128 .f32) : Prop := ∀ y : S1024x128.Idx, (y 0).val < 32 * n → s y = T y

/-- The offset at which point `t` addresses the tables, as a function of the axis. -/
private theorem rowOff_fun (t : Fin cfg0.N) : k0_off1 (grid0.coords t) = (![32 * t.val, 0] : Fin 2 → ℕ) :=
  funext (rowOff_eq t)

/-- One point's store extends the agreement by its 32 rows, for any family `g` of 32-row tiles indexed by the grid
point: a row below `32 t` is not touched and keeps the agreement it had; a row in `[32 t, 32 t + 32)` is written by
point `t = row / 32` at local row `row - 32 t = row % 32`, which is what the complete table holds there. -/
private theorem upto_step (t : Fin cfg0.N) (s : Vec F S1024x128 .f32) (g : Fin cfg0.N → Vec F S32x128 .f32)
    (h : Upto t.val s (fun y => g (ptOf y) (inTile y))) :
    Upto (t.val + 1) (putRows (k0_off1 (grid0.coords t)) (g t) s) (fun y => g (ptOf y) (inTile y)) := by
  intro y hy
  have h0 : (y 0).val < 1024 := (y 0).isLt
  have h1 : (y 1).val < 128 := (y 1).isLt
  rw [rowOff_fun t]
  unfold putRows
  by_cases hlt : (y 0).val < 32 * t.val
  · -- the row lies below the rows this point stores
    rw [dif_neg]
    · exact h y hlt
    · intro hc
      have hc0 : 32 * t.val ≤ (y 0).val := (hc 0).1
      omega
  · -- the row is one of the 32 this point stores
    have hmem : ∀ a : Fin 2, (![32 * t.val, 0] : Fin 2 → ℕ) a ≤ (y a).val
        ∧ (y a).val < (![32 * t.val, 0] : Fin 2 → ℕ) a + S32x128.size a := by
      refine Fin.forall_fin_two.mpr ⟨⟨?_, ?_⟩, ⟨?_, ?_⟩⟩
      · show 32 * t.val ≤ (y 0).val
        omega
      · show (y 0).val < 32 * t.val + 32
        omega
      · show 0 ≤ (y 1).val
        omega
      · show (y 1).val < 0 + 128
        omega
    rw [dif_pos hmem]
    have hpt : ptOf y = t := Fin.ext (by
      show (y 0).val / 32 = t.val
      omega)
    show g t (Rect.unitLocal (s := S1024x128) (off := ![32 * t.val, 0]) (size := S32x128.size) y hmem)
      = g (ptOf y) (inTile y)
    rw [hpt]
    congr 1
    funext a
    match a with
    | ⟨0, _⟩ =>
      refine Fin.ext ?_
      show (y 0).val - 32 * t.val = (y 0).val % 32
      omega
    | ⟨1, _⟩ =>
      refine Fin.ext ?_
      show (y 1).val - 0 = (y 1).val
      omega

/-- Before the first point nothing is asked. -/
theorem upto_zero (s T : Vec F S1024x128 .f32) : Upto 0 s T := fun y h => absurd h (by omega)

/-- After all 32 points the table is complete. -/
theorem upto_all (s T : Vec F S1024x128 .f32) (h : Upto 32 s T) : s = T := by
  funext y
  refine h y ?_
  have h0 : (y 0).val < 1024 := (y 0).isLt
  omega

/-- Point `t`'s store extends the agreement by its 32 rows: source side, -/
theorem upto_stepS (c : Dev nD) (t : Fin cfg0.N) (s : Vec F S1024x128 .f32) (h : Upto t.val s (tblS m c)) :
    Upto (t.val + 1) (putRows (k0_off1 (grid0.coords t)) (tileS (blkW2 m c t) (blkSnn m c t) (blkSneg m c t)) s) (tblS m c) :=
  upto_step t s (fun t => tileS (blkW2 m c t) (blkSnn m c t) (blkSneg m c t)) h

/-- destination side. -/
theorem upto_stepD (c : Dev nD) (t : Fin cfg0.N) (s : Vec F S1024x128 .f32) (h : Upto t.val s (tblD m c)) :
    Upto (t.val + 1) (putRows (k0_off1 (grid0.coords t)) (tileD (blkW2 m c t) (blkDnn m c t) (blkDneg m c t)) s) (tblD m c) :=
  upto_step t s (fun t => tileD (blkW2 m c t) (blkDnn m c t) (blkDneg m c t)) h

/-- The output block the last point stores, over the complete tables. -/
def outBlk (c : Dev nD) (t : Fin cfg0.N) : Vec F S1024x2 .f32 :=
  headOut (blkSrc m c t) (blkDst m c t) (blkW2 m c t) (blkD1 m c t) (blkD2 m c t) (blkD3 m c t) (blkD4 m c t) (tblS m c) (tblD m c)

end Cert.KernelIdeal.Trk

end
-- ==== Proof.KI.StepRun.lean ====
/-
  The body at a point that is not the last: it reads its two first-hop blocks, its two second-hop blocks and `w2`, and
  overwrites rows `[32 t, 32 t + 32)` of each kept table with the point's 32 averaged rows; every other row of the
  tables, and every block it read, is as it found it. The head's branch is not taken, so nothing else is touched.
-/
import proofs.«127706_g9603546873884_cont_9to1c4b_371_2_alg».proof.Proof.KI.Setup

set_option maxRecDepth 16384

noncomputable section

namespace Cert.KernelIdeal.Trk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zz : (![0, 0] : Fin 2 → ℕ) = fun _ => 0 := by
  funext a; match a with | ⟨0, _⟩ => rfl | ⟨1, _⟩ => rfl

set_option maxHeartbeats 1000000 in
/-- The body's triple away from the last point, over the seven buffers it touches there. -/
theorem run_step (c : Dev nD) (i : grid0.Coords) (arg1 : Memref sig .tc .vmem S1024x128 .f32) (harg1 : arg1.IsWhole) (arg2 : Memref sig .tc .vmem S512x128 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S8192x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S128x64 .f32) (harg9 : arg9.IsWhole) (arg10 : Memref sig .tc .vmem S64x8 .f32) (harg10 : arg10.IsWhole) (arg11 : Memref sig .tc .vmem S8x2 .f32) (harg11 : arg11.IsWhole) (arg12 : Memref sig .tc .vmem S1024x2 .f32) (harg12 : arg12.IsWhole) (arg13 : Memref sig .tc .vmem S1024x128 .f32) (harg13 : arg13.IsWhole) (arg14 : Memref sig .tc .vmem S1024x128 .f32) (harg14 : arg14.IsWhole) (hc : ¬atLast i)
    (x1 : Vec F S512x128 .f32) (x2 : Vec F S8192x128 .f32) (x4 : Vec F S512x128 .f32) (x5 : Vec F S8192x128 .f32)
    (x6 : Vec F S256x128 .f32) (s0 s1 : Vec F S1024x128 .f32) :
      ∀ (E : Set ℕ) (K : PUnit → sProp 𝕄),
        iprop(owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare x6 ∗ owns (c : Thread nD τ) arg13 fullShare s0 ∗ owns (c : Thread nD τ) arg14 fullShare s1
            ∗ (iprop(owns (c : Thread nD τ) arg2 fullShare x1 ∗ owns (c : Thread nD τ) arg3 fullShare x2 ∗ owns (c : Thread nD τ) arg5 fullShare x4 ∗ owns (c : Thread nD τ) arg6 fullShare x5 ∗ owns (c : Thread nD τ) arg7 fullShare x6
                ∗ owns (c : Thread nD τ) arg13 fullShare (putRows (k0_off1 i) (tileS x6 x2 x1) s0)
                ∗ owns (c : Thread nD τ) arg14 fullShare (putRows (k0_off1 i) (tileD x6 x5 x4) s1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part2_eq_skeleton]
    unfold owns
    iintro ⟨⟨%f1, %hf1, H1⟩, ⟨%f2, %hf2, H2⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf1; obtain rfl := harg3.eq_unread hf2; obtain rfl := harg5.eq_unread hf4
    obtain rfl := harg6.eq_unread hf5; obtain rfl := harg7.eq_unread hf6
    obtain rfl := harg13.eq_unread hfs0; obtain rfl := harg14.eq_unread hfs1
    sl_exec (disch := first | exact hc)
    sl_step
    sl_unfold_words
    iapply Hk
    isplitl [H1]
    · iexists _; isplitr; · ipureintro; exact harg2.read_unread _
      iexact H1
    isplitl [H2]
    · iexists _; isplitr; · ipureintro; exact harg3.read_unread _
      iexact H2
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; swap; · iexact HS0
      ipureintro
      simp only [View.readAt_eq_ld, harg2.read_unread, harg3.read_unread, harg7.read_unread,
        View.ld_unit_zero (S := S8192x128) zz, View.ld_unit_zero (S := S512x128) zz]
      exact read_put harg13 _ _ _ s0
    iexists _; isplitr; swap; · iexact HS1
    ipureintro
    simp only [View.readAt_eq_ld, harg5.read_unread, harg6.read_unread, harg7.read_unread,
      View.ld_unit_zero (S := S8192x128) zz, View.ld_unit_zero (S := S512x128) zz]
    exact read_put harg14 _ _ _ s1

end Cert.KernelIdeal.Trk

end
-- ==== Proof.KI.LastRun.lean ====
/-
  The body at the last point: after overwriting rows `[992, 1024)` of the two kept tables like every other point, it reads
  both tables whole, together with the two root feature blocks and the weights `w2`, `d1`, … `d4`, and stores the
  classifier's output block; every block it read is as it found it.
-/
import proofs.«127706_g9603546873884_cont_9to1c4b_371_2_alg».proof.Proof.KI.Setup

set_option maxRecDepth 16384

noncomputable section

namespace Cert.KernelIdeal.Trk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem zz : (![0, 0] : Fin 2 → ℕ) = fun _ => 0 := by
  funext a; match a with | ⟨0, _⟩ => rfl | ⟨1, _⟩ => rfl

set_option maxHeartbeats 2000000 in
/-- The body's triple at the last point. -/
theorem run_last (c : Dev nD) (i : grid0.Coords) (arg1 : Memref sig .tc .vmem S1024x128 .f32) (harg1 : arg1.IsWhole) (arg2 : Memref sig .tc .vmem S512x128 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S512x128 .f32) (harg5 : arg5.IsWhole) (arg6 : Memref sig .tc .vmem S8192x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S128x64 .f32) (harg9 : arg9.IsWhole) (arg10 : Memref sig .tc .vmem S64x8 .f32) (harg10 : arg10.IsWhole) (arg11 : Memref sig .tc .vmem S8x2 .f32) (harg11 : arg11.IsWhole) (arg12 : Memref sig .tc .vmem S1024x2 .f32) (harg12 : arg12.IsWhole) (arg13 : Memref sig .tc .vmem S1024x128 .f32) (harg13 : arg13.IsWhole) (arg14 : Memref sig .tc .vmem S1024x128 .f32) (harg14 : arg14.IsWhole) (hc : atLast i)
    (x0 : Vec F S1024x128 .f32) (x1 : Vec F S512x128 .f32) (x2 : Vec F S8192x128 .f32) (x3 : Vec F S1024x128 .f32) (x4 : Vec F S512x128 .f32) (x5 : Vec F S8192x128 .f32) (x6 : Vec F S256x128 .f32) (x7 : Vec F S256x128 .f32) (x8 : Vec F S128x64 .f32) (x9 : Vec F S64x8 .f32) (x10 : Vec F S8x2 .f32) (s0 s1 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare s0 ∗ owns (c : Thread nD τ) arg14 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
                ∗ owns (c : Thread nD τ) arg12 fullShare (headOut x0 x3 x6 x7 x8 x9 x10 (putRows (k0_off1 i) (tileS x6 x2 x1) s0) (putRows (k0_off1 i) (tileD x6 x5 x4) s1))
                ∗ owns (c : Thread nD τ) arg13 fullShare (putRows (k0_off1 i) (tileS x6 x2 x1) s0)
                ∗ owns (c : Thread nD τ) arg14 fullShare (putRows (k0_off1 i) (tileD x6 x5 x4) s1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    obtain rfl := harg13.eq_unread hfs0; obtain rfl := harg14.eq_unread hfs1
    sl_exec (disch := first | exact hc)
    sl_step
    sl_unfold_words
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      rw [View.read_writes_eq_canon _ _ _ (fun y => ⟨_, List.mem_singleton_self _, View.mem_set_unit_zero zz inb_S1024x2_S1024x2_0_0 y⟩),
        View.canon_unit_zero zz inb_S1024x2_S1024x2_0_0]
      simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x128) zz, View.ld_unit_zero (S := S512x128) zz, View.ld_unit_zero (S := S8192x128) zz, View.ld_unit_zero (S := S128x64) zz, View.ld_unit_zero (S := S64x8) zz, View.ld_unit_zero (S := S8x2) zz]
      exact congrArg₂ (fun a b => headOut x0 x3 x6 x7 x8 x9 x10 a b)
        (read_put harg13 (k0_off1 i) (k0_off1_inb i) (tileS x6 x2 x1) s0)
        (read_put harg14 (k0_off1 i) (k0_off1_inb i) (tileD x6 x5 x4) s1)
    isplitl [HS0]
    · iexists _; isplitr; swap; · iexact HS0
      ipureintro
      simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x128) zz, View.ld_unit_zero (S := S512x128) zz, View.ld_unit_zero (S := S8192x128) zz, View.ld_unit_zero (S := S128x64) zz, View.ld_unit_zero (S := S64x8) zz, View.ld_unit_zero (S := S8x2) zz]
      exact read_put harg13 _ _ _ s0
    iexists _; isplitr; swap; · iexact HS1
    ipureintro
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x128) zz, View.ld_unit_zero (S := S512x128) zz, View.ld_unit_zero (S := S8192x128) zz, View.ld_unit_zero (S := S128x64) zz, View.ld_unit_zero (S := S64x8) zz, View.ld_unit_zero (S := S8x2) zz]
    exact read_put harg14 _ _ _ s1

end Cert.KernelIdeal.Trk

end
-- ==== Proof.KI.Track.lean ====
/-
  The pipeline's proof data and its run. Between points the region holds the two tables at contents that agree with
  the complete tables on the rows written so far (nothing is known of the other rows: the tables start at whatever the
  buffers held); each input window's staging buffer holds its block; the output window's buffer is left as found until the
  last point stores the output block, computed from the two tables, which by then are complete.
-/
import proofs.«127706_g9603546873884_cont_9to1c4b_371_2_alg».proof.Proof.KI.Tables
import proofs.«127706_g9603546873884_cont_9to1c4b_371_2_alg».proof.Proof.KI.StepRun
import proofs.«127706_g9603546873884_cont_9to1c4b_371_2_alg».proof.Proof.KI.LastRun

set_option maxRecDepth 16384

noncomputable section

namespace Cert.KernelIdeal.Trk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant before point `n`: each table at some contents that agree with the complete table on rows
    `[0, 32 n)`, and the generator register at some state. -/
def PhiT (c : Dev nD) (n : ℕ) : sProp 𝕄 :=
  iprop(iprop((∃ s, ⌜Upto n s (tblS m c)⌝ ∗ owns (c : Thread nD τ) accS fullShare s)
      ∗ (∃ s, ⌜Upto n s (tblD m c)⌝ ∗ owns (c : Thread nD τ) accD fullShare s)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_out (c : Dev nD) (t : Fin cfg0.N) : (dats m 0 c).after 11 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-! ## What each window is handed back as -/

/-- A window that is read at every point is never idle: the body hands its buffer back at the point's block. -/
private theorem leaves_0 (c : Dev nD) (t : Fin cfg0.N) :
    (dats m 0 c).leavesExact 0 t = owns (c : Thread nD τ) (stg0 t) fullShare (iblk m c 0 t) := by
  unfold Dat.leavesExact; rw [live_0 t, after_0]
private theorem leaves_1 (c : Dev nD) (t : Fin cfg0.N) :
    (dats m 0 c).leavesExact 1 t = owns (c : Thread nD τ) (stg1 t) fullShare (iblk m c 1 t) := by
  unfold Dat.leavesExact; rw [live_1 t, after_1]
private theorem leaves_2 (c : Dev nD) (t : Fin cfg0.N) :
    (dats m 0 c).leavesExact 2 t = owns (c : Thread nD τ) (stg2 t) fullShare (iblk m c 2 t) := by
  unfold Dat.leavesExact; rw [live_2 t, after_2]
private theorem leaves_3 (c : Dev nD) (t : Fin cfg0.N) :
    (dats m 0 c).leavesExact 3 t = owns (c : Thread nD τ) (stg3 t) fullShare (iblk m c 3 t) := by
  unfold Dat.leavesExact; rw [live_3 t, after_3]
private theorem leaves_4 (c : Dev nD) (t : Fin cfg0.N) :
    (dats m 0 c).leavesExact 4 t = owns (c : Thread nD τ) (stg4 t) fullShare (iblk m c 4 t) := by
  unfold Dat.leavesExact; rw [live_4 t, after_4]
private theorem leaves_5 (c : Dev nD) (t : Fin cfg0.N) :
    (dats m 0 c).leavesExact 5 t = owns (c : Thread nD τ) (stg5 t) fullShare (iblk m c 5 t) := by
  unfold Dat.leavesExact; rw [live_5 t, after_5]
private theorem leaves_6 (c : Dev nD) (t : Fin cfg0.N) :
    (dats m 0 c).leavesExact 6 t = owns (c : Thread nD τ) (stg6 t) fullShare (iblk m c 6 t) := by
  unfold Dat.leavesExact; rw [live_6 t, after_6]
private theorem leaves_7 (c : Dev nD) (t : Fin cfg0.N) :
    (dats m 0 c).leavesExact 7 t = owns (c : Thread nD τ) (stg7 t) fullShare (iblk m c 7 t) := by
  unfold Dat.leavesExact; rw [live_7 t, after_7]
private theorem leaves_8 (c : Dev nD) (t : Fin cfg0.N) :
    (dats m 0 c).leavesExact 8 t = owns (c : Thread nD τ) (stg8 t) fullShare (iblk m c 8 t) := by
  unfold Dat.leavesExact; rw [live_8 t, after_8]
private theorem leaves_9 (c : Dev nD) (t : Fin cfg0.N) :
    (dats m 0 c).leavesExact 9 t = owns (c : Thread nD τ) (stg9 t) fullShare (iblk m c 9 t) := by
  unfold Dat.leavesExact; rw [live_9 t, after_9]
private theorem leaves_10 (c : Dev nD) (t : Fin cfg0.N) :
    (dats m 0 c).leavesExact 10 t = owns (c : Thread nD τ) (stg10 t) fullShare (iblk m c 10 t) := by
  unfold Dat.leavesExact; rw [live_10 t, after_10]

/-- Away from the last point the output's buffer is idle and not written back: it comes back as it was found. -/
private theorem leaves_out_idle (c : Dev nD) (t : Fin cfg0.N) (h : t.val ≠ 31) :
    (dats m 0 c).leavesExact 11 t
      = iprop(∃ d, owns (c : Thread nD τ) (stg11 t) fullShare ((dats m 0 c).before 11 t d)) :=
  Dat.leavesExact_idle (dats m 0 c) 11 t (out_idle t h) (out_noflush t h)

/-- At the last point it is live: it comes back at the output block. -/
private theorem leaves_out_last (c : Dev nD) (t : Fin cfg0.N) (h : t.val = 31) :
    (dats m 0 c).leavesExact 11 t = owns (c : Thread nD τ) (stg11 t) fullShare (outBlk m c t) := by
  unfold Dat.leavesExact; rw [out_live t h, after_out]

/-- The invariant at a point's start and at its end, as `PhiT` at the point's number and the next. -/
private theorem Phi_castSucc (c : Dev nD) (t : Fin cfg0.N) : (dats m 0 c).Φ t.castSucc = PhiT m c t.val := rfl
private theorem Phi_succ (c : Dev nD) (t : Fin cfg0.N) : (dats m 0 c).Φ t.succ = PhiT m c (t.val + 1) := rfl

set_option maxHeartbeats 4000000 in
/-- The body away from the last point: the step's triple takes the two first-hop blocks, the two second-hop blocks, `w2`
    and the two tables; the other windows are not touched and go round unchanged. Each table comes back with the point's
    32 rows stored, so its agreement with the complete table reaches row `32 (t + 1)`. -/
private theorem sound_step (c : Dev nD) (t : Fin cfg0.N) (hl : t.val ≠ 31) :
    bodyPre m c t ⊢ wp frame (wpE (defs₀ (F := F)) Variants.none c none) Set.univ (bodyAt0 t) (fun _ => bodyPost m c t) := by
  have hnl : ¬atLast (grid0.coords t) := (atLast_iff t).not.mpr hl
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [leaves_0, leaves_1, leaves_2, leaves_3, leaves_4, leaves_5, leaves_6, leaves_7, leaves_8, leaves_9, leaves_10,
    leaves_out_idle m c t hl, Phi_castSucc, Phi_succ]
  unfold PhiT
  iintro ⟨⟨⟨⟨%s0, %h0, HS0⟩, ⟨%s1, %h1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (run_step c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) accS (Memref.isWhole_whole _) accD (Memref.isWhole_whole _) hnl
    (iblk m c 1 t) (iblk m c 2 t) (iblk m c 4 t) (iblk m c 5 t) (iblk m c 6 t) s0 s1 Set.univ _)
  isplitl [H1]; · iexact H1
  isplitl [H2]; · iexact H2
  isplitl [H4]; · iexact H4
  isplitl [H5]; · iexact H5
  isplitl [H6]; · iexact H6
  isplitl [HS0]; · iexact HS0
  isplitl [HS1]; · iexact HS1
  iintro ⟨H1, H2, H4, H5, H6, HS0, HS1⟩
  isplitl [HS0 HS1 Hg]
  · isplitl [HS0 HS1]
    · isplitl [HS0]
      · iexists _; isplitr
        · ipureintro; exact upto_stepS m c t s0 h0
        iexact HS0
      · iexists _; isplitr
        · ipureintro; exact upto_stepD m c t s1 h1
        iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The body at the last point: the head's triple takes every window and the two tables. The tables it reads back have
    the last 32 rows stored on top of an agreement up to row `32 · 31`, so they agree with the complete tables on all
    `32 · 32 = 1024` rows: they ARE the complete tables, and the block stored is `outBlk`. -/
private theorem sound_last (c : Dev nD) (t : Fin cfg0.N) (hl : t.val = 31) :
    bodyPre m c t ⊢ wp frame (wpE (defs₀ (F := F)) Variants.none c none) Set.univ (bodyAt0 t) (fun _ => bodyPost m c t) := by
  have hal : atLast (grid0.coords t) := (atLast_iff t).mpr hl
  have e32 : t.val + 1 = 32 := by omega
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [leaves_0, leaves_1, leaves_2, leaves_3, leaves_4, leaves_5, leaves_6, leaves_7, leaves_8, leaves_9, leaves_10,
    leaves_out_last m c t hl, Phi_castSucc, Phi_succ]
  unfold PhiT outBlk
  iintro ⟨⟨⟨⟨%s0, %h0, HS0⟩, ⟨%s1, %h1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have eS : putRows (k0_off1 (grid0.coords t)) (tileS (iblk m c 6 t) (iblk m c 2 t) (iblk m c 1 t)) s0 = tblS m c := by
    have h := upto_stepS m c t s0 h0
    rw [e32] at h
    exact upto_all _ _ h
  have eD : putRows (k0_off1 (grid0.coords t)) (tileD (iblk m c 6 t) (iblk m c 5 t) (iblk m c 4 t)) s1 = tblD m c := by
    have h := upto_stepD m c t s1 h1
    rw [e32] at h
    exact upto_all _ _ h
  iapply (run_last c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) (stg9 t) (stg9_whole t) (stg10 t) (stg10_whole t) (stg11 t) (stg11_whole t) accS (Memref.isWhole_whole _) accD (Memref.isWhole_whole _) hal
    (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  rw [eS, eD]
  iintro ⟨H0, H1, H2, H3, H4, H5, H6, H7, H8, H9, H10, H11, HS0, HS1⟩
  isplitl [HS0 HS1 Hg]
  · isplitl [HS0 HS1]
    · isplitl [HS0]
      · iexists _; isplitr
        · ipureintro; exact fun _ _ => rfl
        iexact HS0
      · iexists _; isplitr
        · ipureintro; exact fun _ _ => rfl
        iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The body at any point. Away from the last point the step's triple applies, the output's buffer is handed back as
    found, and each table's agreement grows by the point's 32 rows. At the last point the tables it reads back are the
    complete ones, so the block it stores is `outBlk`. -/
theorem sound_body (c : Dev nD) (t : Fin cfg0.N) :
    bodyPre m c t ⊢ wp frame (wpE (defs₀ (F := F)) Variants.none c none) Set.univ (bodyAt0 t) (fun _ => bodyPost m c t) := by
  by_cases hl : t.val = 31
  · exact sound_last m c t hl
  · exact sound_step m c t hl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the tables yet. -/
theorem hin (c : Dev nD) : Pipeline.ΦA spec0 c ⊢ (dats m 0 c).Φ 0 := by
  rw [classInv_eq, show (dats m 0 c).Φ 0 = PhiT m c 0 from rfl]
  unfold PhiT
  iintro ⟨⟨⟨%d0, H0⟩, ⟨%d1, H1⟩⟩, Hg⟩
  isplitl [H0 H1]
  · isplitl [H0]
    · iexists d0; isplitr
      · ipureintro; exact upto_zero _ _
      iexact H0
    · iexists d1; isplitr
      · ipureintro; exact upto_zero _ _
      iexact H1
  · iexact Hg

/-- After the last point the invariant gives the class's back: what the tables hold is forgotten. -/
theorem hout (c : Dev nD) : (dats m 0 c).Φ (Fin.last cfg0.N) ⊢ Pipeline.ΦA spec0 c := by
  rw [classInv_eq, show (dats m 0 c).Φ (Fin.last cfg0.N) = PhiT m c cfg0.N from rfl]
  unfold PhiT
  iintro ⟨⟨⟨%s0, -, H0⟩, ⟨%s1, -, H1⟩⟩, Hg⟩
  isplitl [H0 H1]
  · isplitl [H0]
    · iexists s0; iexact H0
    · iexists s1; iexact H1
  · iexact Hg

set_option backward.isDefEq.respectTransparency.types false in
/-- Every weakly fair execution of @main terminates; every array of the pipeline ends at what the library computes from
    the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Trk

end
-- ==== Proof.KI.Result.lean ====
/-
  What the run leaves in the result array. The output window is written back once, after the last point, and its block
  is the whole array; so the array ends at the block the last point stored.
-/
import proofs.«127706_g9603546873884_cont_9to1c4b_371_2_alg».proof.Proof.KI.Track

set_option maxRecDepth 16384

noncomputable section

namespace Cert.KernelIdeal.Trk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's last point. -/
def lastPt : Fin cfg0.N := ⟨31, by have hN : cfg0.N = 32 := N_0; omega⟩

/-- The output window's index map is constant: at every point its block index is `(0, 0)`. -/
theorem out_index : ∀ t : Fin cfg0.N, win0_11.index t (0 : Fin 2) = 0 ∧ win0_11.index t (1 : Fin 2) = 0 :=
  (by decide +kernel : ∀ t : Fin grid0.N, _)

/-- The only point at which the output window is written back is the last one. -/
theorem eq_lastPt_of_flush (t : Fin cfg0.N) (h : (cfg0.win 11).flush t = true) : t = lastPt := by
  have h31 : t.val % 32 = 31 := (flush0_11 t).mp h
  have hlt : t.val < 32 := by have hN : cfg0.N = 32 := N_0; have := t.isLt; omega
  exact Fin.ext (by show t.val = 31; omega)

/-- The output window's block is the whole array: reading it off any contents `G` of the array gives `G` back. -/
theorem read_out_block (t : Fin cfg0.N) (G : Vec F S1024x2 .f32) :
    ((cfg0.win 11).blk t).view.read (Elt F) G = G := by
  obtain ⟨e0, e1⟩ := out_index t
  funext j
  show G (((cfg0.win 11).blk t).view.emb j) = G j
  congr 1
  funext a
  apply Fin.ext
  match a with
  | ⟨0, _⟩ =>
    show win0_11.index t (0 : Fin 2) * 1024 + 1 * (j 0).val = (j 0).val
    rw [e0]; omega
  | ⟨1, _⟩ =>
    show win0_11.index t (1 : Fin 2) * 2 + 1 * (j 1).val = (j 1).val
    rw [e1]; omega

/-- Every index of the array lies in the output window's block, at any point. -/
theorem mem_out_block (t : Fin cfg0.N) (i : S1024x2.Idx) : i ∈ ((cfg0.win 11).blk t).view.set := by
  obtain ⟨e0, e1⟩ := out_index t
  have h0 : (i 0).val < 1024 := (i 0).isLt
  have h1 : (i 1).val < 2 := (i 1).isLt
  show i ∈ ((View.whole main_v0).slice (win0_11.rect t)).set
  rw [View.set_slice_whole, Rect.mem_set_unit]
  intro a
  match a with
  | ⟨0, _⟩ =>
    show win0_11.index t (0 : Fin 2) * 1024 ≤ (i 0).val ∧ (i 0).val < win0_11.index t (0 : Fin 2) * 1024 + 1024
    rw [e0]; omega
  | ⟨1, _⟩ =>
    show win0_11.index t (1 : Fin 2) * 2 ≤ (i 1).val ∧ (i 1).val < win0_11.index t (1 : Fin 2) * 2 + 2
    rw [e1]; omega

/-- What the last point writes back is the output block it stored: the window is not cut, so the write-back moves
    all of what the body left. -/
theorem flushed_out (c : Dev nD) : (dats m 0 c).flushed 11 lastPt = outBlk m c lastPt := by
  show (cfg0.win 11).cut (grid0.coords lastPt) ((dats m 0 c).after 11 lastPt) = _
  rw [after_out]
  rfl

/-- The result array after the run: one write-back, at the last point, of a block that is the whole array. -/
theorem out_array (c : Dev nD) : (dats m 0 c).arrAt 11 cfg0.N = outBlk m c lastPt := by
  refine (dats m 0 c).arrAt_eq_of_cover 11 (outBlk m c lastPt) (fun t ht => ?_) (fun i => ?_)
  · rw [eq_lastPt_of_flush t ht, flushed_out m c]
    exact (read_out_block lastPt (outBlk m c lastPt)).symm
  · exact ⟨lastPt, out_flush lastPt rfl, mem_out_block lastPt i⟩

/-- The program's run with its result named: the result array ends at the last point's output block, the argument
    arrays unchanged. -/
theorem run_value : θ_run defs (onTc (τ := τ) (main (F := F))) ⟨m, fun _ => 0, ρ⟩ (fun r => ∀ c : Dev nD,
      r.2.mem ((c.tc : Thread nD τ).loc main_v0) = outBlk m c lastPt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 11).trans (out_array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.KernelIdeal.Trk

end
-- ==== Proof.KI.Blocks.lean ====
/-
  The staged blocks as slices of the argument arrays. A window whose index map is constant stages its whole array at
  every point; the first-hop windows stage rows `[512 t, 512 t + 512)` at point `t`, the second-hop windows rows
  `[8192 t, 8192 t + 8192)`.
-/
import proofs.«127706_g9603546873884_cont_9to1c4b_371_2_alg».proof.Proof.KI.Setup

set_option maxRecDepth 16384

noncomputable section

namespace Cert.KernelIdeal.Trk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `32 t + j 0`, column `j 1` of a 1024-row table. -/
def rowAt32 (t : Fin cfg0.N) (j : S32x128.Idx) : S1024x128.Idx := fun a => match a with
  | ⟨0, _⟩ => ⟨32 * t.val + (j 0).val, by
      have h : (j 0).val < 32 := (j 0).isLt
      have hN : cfg0.N = 32 := N_0
      have ht := t.isLt
      show 32 * t.val + (j 0).val < 1024
      omega⟩
  | ⟨1, _⟩ => ⟨(j 1).val, (j 1).isLt⟩

/-- Row `512 t + j 0`, column `j 1` of a first-hop array. -/
def rowAt512 (t : Fin cfg0.N) (j : S512x128.Idx) : S16384x128.Idx := fun a => match a with
  | ⟨0, _⟩ => ⟨512 * t.val + (j 0).val, by
      have h : (j 0).val < 512 := (j 0).isLt
      have hN : cfg0.N = 32 := N_0
      have ht := t.isLt
      show 512 * t.val + (j 0).val < 16384
      omega⟩
  | ⟨1, _⟩ => ⟨(j 1).val, (j 1).isLt⟩

/-- Row `8192 t + j 0`, column `j 1` of a second-hop array. -/
def rowAt8192 (t : Fin cfg0.N) (j : S8192x128.Idx) : S262144x128.Idx := fun a => match a with
  | ⟨0, _⟩ => ⟨8192 * t.val + (j 0).val, by
      have h : (j 0).val < 8192 := (j 0).isLt
      have hN : cfg0.N = 32 := N_0
      have ht := t.isLt
      show 8192 * t.val + (j 0).val < 262144
      omega⟩
  | ⟨1, _⟩ => ⟨(j 1).val, (j 1).isLt⟩

variable (m : (ℓ : Loc nD τ sig) → Buf (Elt F) ℓ)

/-! ## Where the blocks sit: the index maps over the grid

  A block's element `y` sits in its array, on each axis `a`, at coordinate `index t a * size a + y a`. The index maps are
  closed terms of the grid point, so what they are at each of the 32 points is decided.
-/

/-- The whole-array windows have block index zero on both axes at every point. -/
theorem idxSrc : ∀ t : Fin cfg0.N, ∀ a : Fin 2, win0_0.index t a = 0 :=
  (by decide +kernel : ∀ t : Fin grid0.N, ∀ a : Fin 2, win0_0.index t a = 0)
theorem idxDst : ∀ t : Fin cfg0.N, ∀ a : Fin 2, win0_3.index t a = 0 :=
  (by decide +kernel : ∀ t : Fin grid0.N, ∀ a : Fin 2, win0_3.index t a = 0)
theorem idxW2 : ∀ t : Fin cfg0.N, ∀ a : Fin 2, win0_6.index t a = 0 :=
  (by decide +kernel : ∀ t : Fin grid0.N, ∀ a : Fin 2, win0_6.index t a = 0)
theorem idxD1 : ∀ t : Fin cfg0.N, ∀ a : Fin 2, win0_7.index t a = 0 :=
  (by decide +kernel : ∀ t : Fin grid0.N, ∀ a : Fin 2, win0_7.index t a = 0)
theorem idxD2 : ∀ t : Fin cfg0.N, ∀ a : Fin 2, win0_8.index t a = 0 :=
  (by decide +kernel : ∀ t : Fin grid0.N, ∀ a : Fin 2, win0_8.index t a = 0)
theorem idxD3 : ∀ t : Fin cfg0.N, ∀ a : Fin 2, win0_9.index t a = 0 :=
  (by decide +kernel : ∀ t : Fin grid0.N, ∀ a : Fin 2, win0_9.index t a = 0)
theorem idxD4 : ∀ t : Fin cfg0.N, ∀ a : Fin 2, win0_10.index t a = 0 :=
  (by decide +kernel : ∀ t : Fin grid0.N, ∀ a : Fin 2, win0_10.index t a = 0)

/-- The slab windows have block index `(t, 0)` at point `t`: the row block moves with the point, the columns do not. -/
theorem idxSneg : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idxSnn : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idxDneg : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idxDnn : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-! ## Windows that stage their whole array

  The block read at `y` is the array read at the block's embedding of `y`; with block index zero on every axis that
  embedding is `y` itself.
-/

theorem blkSrc_eq (c : Dev nD) (t : Fin cfg0.N) : blkSrc m c t = m ((c.tc : Thread nD τ).loc main_arg0) := by
  funext y
  show V m c main_arg0 (((cfg0.win 0).blk t).view.emb y) = V m c main_arg0 y
  refine congrArg (V m c main_arg0) (funext fun a => Fin.ext ?_)
  exact win0_0.rect_emb_val_of_index_zero t a (idxSrc t a) y
theorem blkDst_eq (c : Dev nD) (t : Fin cfg0.N) : blkDst m c t = m ((c.tc : Thread nD τ).loc main_arg3) := by
  funext y
  show V m c main_arg3 (((cfg0.win 3).blk t).view.emb y) = V m c main_arg3 y
  refine congrArg (V m c main_arg3) (funext fun a => Fin.ext ?_)
  exact win0_3.rect_emb_val_of_index_zero t a (idxDst t a) y
theorem blkW2_eq (c : Dev nD) (t : Fin cfg0.N) : blkW2 m c t = m ((c.tc : Thread nD τ).loc main_arg6) := by
  funext y
  show V m c main_arg6 (((cfg0.win 6).blk t).view.emb y) = V m c main_arg6 y
  refine congrArg (V m c main_arg6) (funext fun a => Fin.ext ?_)
  exact win0_6.rect_emb_val_of_index_zero t a (idxW2 t a) y
theorem blkD1_eq (c : Dev nD) (t : Fin cfg0.N) : blkD1 m c t = m ((c.tc : Thread nD τ).loc main_arg7) := by
  funext y
  show V m c main_arg7 (((cfg0.win 7).blk t).view.emb y) = V m c main_arg7 y
  refine congrArg (V m c main_arg7) (funext fun a => Fin.ext ?_)
  exact win0_7.rect_emb_val_of_index_zero t a (idxD1 t a) y
theorem blkD2_eq (c : Dev nD) (t : Fin cfg0.N) : blkD2 m c t = m ((c.tc : Thread nD τ).loc main_arg8) := by
  funext y
  show V m c main_arg8 (((cfg0.win 8).blk t).view.emb y) = V m c main_arg8 y
  refine congrArg (V m c main_arg8) (funext fun a => Fin.ext ?_)
  exact win0_8.rect_emb_val_of_index_zero t a (idxD2 t a) y
theorem blkD3_eq (c : Dev nD) (t : Fin cfg0.N) : blkD3 m c t = m ((c.tc : Thread nD τ).loc main_arg9) := by
  funext y
  show V m c main_arg9 (((cfg0.win 9).blk t).view.emb y) = V m c main_arg9 y
  refine congrArg (V m c main_arg9) (funext fun a => Fin.ext ?_)
  exact win0_9.rect_emb_val_of_index_zero t a (idxD3 t a) y
theorem blkD4_eq (c : Dev nD) (t : Fin cfg0.N) : blkD4 m c t = m ((c.tc : Thread nD τ).loc main_arg10) := by
  funext y
  show V m c main_arg10 (((cfg0.win 10).blk t).view.emb y) = V m c main_arg10 y
  refine congrArg (V m c main_arg10) (funext fun a => Fin.ext ?_)
  exact win0_10.rect_emb_val_of_index_zero t a (idxD4 t a) y

/-! ## Windows that stage a slab of rows

  With block index `(t, 0)` and a block of `r` rows, the embedding of `y` is row `t * r + y 0`, column `y 1`.
-/

theorem blkSneg_eq (c : Dev nD) (t : Fin cfg0.N) :
    blkSneg m c t = fun j => (m ((c.tc : Thread nD τ).loc main_arg1) : S16384x128.Idx → Elt F .f32) (rowAt512 t j) := by
  funext y
  obtain ⟨e0, e1⟩ := idxSneg t
  show V m c main_arg1 (((cfg0.win 1).blk t).view.emb y) = V m c main_arg1 (rowAt512 t y)
  refine congrArg (V m c main_arg1) (funext fun a => Fin.ext ?_)
  match a with
  | ⟨0, _⟩ =>
    show ((win0_1.rect t).emb y (0 : Fin 2) : Nat) = 512 * t.val + (y 0).val
    rw [win0_1.rect_emb_val t y (0 : Fin 2), e0]
    show t.val * 512 + (y 0).val = 512 * t.val + (y 0).val
    omega
  | ⟨1, _⟩ =>
    show ((win0_1.rect t).emb y (1 : Fin 2) : Nat) = (y 1).val
    exact win0_1.rect_emb_val_of_index_zero t (1 : Fin 2) e1 y
theorem blkDneg_eq (c : Dev nD) (t : Fin cfg0.N) :
    blkDneg m c t = fun j => (m ((c.tc : Thread nD τ).loc main_arg4) : S16384x128.Idx → Elt F .f32) (rowAt512 t j) := by
  funext y
  obtain ⟨e0, e1⟩ := idxDneg t
  show V m c main_arg4 (((cfg0.win 4).blk t).view.emb y) = V m c main_arg4 (rowAt512 t y)
  refine congrArg (V m c main_arg4) (funext fun a => Fin.ext ?_)
  match a with
  | ⟨0, _⟩ =>
    show ((win0_4.rect t).emb y (0 : Fin 2) : Nat) = 512 * t.val + (y 0).val
    rw [win0_4.rect_emb_val t y (0 : Fin 2), e0]
    show t.val * 512 + (y 0).val = 512 * t.val + (y 0).val
    omega
  | ⟨1, _⟩ =>
    show ((win0_4.rect t).emb y (1 : Fin 2) : Nat) = (y 1).val
    exact win0_4.rect_emb_val_of_index_zero t (1 : Fin 2) e1 y
theorem blkSnn_eq (c : Dev nD) (t : Fin cfg0.N) :
    blkSnn m c t = fun j => (m ((c.tc : Thread nD τ).loc main_arg2) : S262144x128.Idx → Elt F .f32) (rowAt8192 t j) := by
  funext y
  obtain ⟨e0, e1⟩ := idxSnn t
  show V m c main_arg2 (((cfg0.win 2).blk t).view.emb y) = V m c main_arg2 (rowAt8192 t y)
  refine congrArg (V m c main_arg2) (funext fun a => Fin.ext ?_)
  match a with
  | ⟨0, _⟩ =>
    show ((win0_2.rect t).emb y (0 : Fin 2) : Nat) = 8192 * t.val + (y 0).val
    rw [win0_2.rect_emb_val t y (0 : Fin 2), e0]
    show t.val * 8192 + (y 0).val = 8192 * t.val + (y 0).val
    omega
  | ⟨1, _⟩ =>
    show ((win0_2.rect t).emb y (1 : Fin 2) : Nat) = (y 1).val
    exact win0_2.rect_emb_val_of_index_zero t (1 : Fin 2) e1 y
theorem blkDnn_eq (c : Dev nD) (t : Fin cfg0.N) :
    blkDnn m c t = fun j => (m ((c.tc : Thread nD τ).loc main_arg5) : S262144x128.Idx → Elt F .f32) (rowAt8192 t j) := by
  funext y
  obtain ⟨e0, e1⟩ := idxDnn t
  show V m c main_arg5 (((cfg0.win 5).blk t).view.emb y) = V m c main_arg5 (rowAt8192 t y)
  refine congrArg (V m c main_arg5) (funext fun a => Fin.ext ?_)
  match a with
  | ⟨0, _⟩ =>
    show ((win0_5.rect t).emb y (0 : Fin 2) : Nat) = 8192 * t.val + (y 0).val
    rw [win0_5.rect_emb_val t y (0 : Fin 2), e0]
    show t.val * 8192 + (y 0).val = 8192 * t.val + (y 0).val
    omega
  | ⟨1, _⟩ =>
    show ((win0_5.rect t).emb y (1 : Fin 2) : Nat) = (y 1).val
    exact win0_5.rect_emb_val_of_index_zero t (1 : Fin 2) e1 y

end Cert.KernelIdeal.Trk

end
-- ==== Proof.ValTile.lean ====
/-
  A tile of either kept table is a slab of the reference's second-hop input. At the extended reals the kernel's
  `(Σ₁₆ x) · 2⁻⁴` is the reference's `(Σ₁₆ x) / 16`; its two products with the upper and the lower half of `w2` add up
  to the reference's one product of the concatenation `[n, mean]` with `w2` (a sum over 256 split at 128); and averaging
  the 512 results sixteen at a time is the reference's reshape-and-mean restricted to the slab.
-/
import proofs.«127706_g9603546873884_cont_9to1c4b_371_2_alg».proof.Proof.KI.Blocks
import proofs.«127706_g9603546873884_cont_9to1c4b_371_2_alg».proof.Proof.RefRead
import Idealize.ShloMosaic.PureOps.Ideal.Laws
import Idealize.ShloMosaic.Lib.ValueIdx
import Idealize.ShloMosaic.Lib.Pipeline.Value

set_option maxRecDepth 16384

noncomputable section

namespace Cert.Bridge

open Idealize.ShloMosaic Idealize.ShloMosaic.TcCoe Idealize.SL.Sem
open Cert.KernelIdeal Cert.KernelIdeal.Gen Cert.KernelIdeal.Trk

namespace Tile

open Idealize.ShloMosaic.ValueIdx

/-- The word `0x3D800000` denotes one sixteenth. -/
theorem ofBits_sixteenth : Ideal.ofBits .f32 0x3D800000#32 = (((1 : ℝ) / 16 : ℝ) : EReal) := by
  simp [Ideal.ofBits, Ideal.ieee, -EReal.coe_mul]; norm_num

/-- The word `0x41800000` denotes sixteen. -/
theorem ofBits_sixteen : Ideal.ofBits .f32 0x41800000#32 = ((16 : ℝ) : EReal) := by
  simp [Ideal.ofBits, Ideal.ieee, -EReal.coe_mul]; norm_num

/-- A product with one sixteenth is the quotient by sixteen, at the infinities too. -/
theorem mul_sixteenth (S : EReal) :
    S * Ideal.ofBits .f32 0x3D800000#32 = Ideal.div S (Ideal.ofBits .f32 0x41800000#32) := by
  rw [ofBits_sixteenth, ofBits_sixteen, Ideal.div_coe (by norm_num : (16 : ℝ) ≠ 0)]

/-- The first stage of a point: its 8192 second-hop rows summed sixteen at a time, times one sixteenth. -/
def meanK (x : FVec Ideal S8192x128 .f32) : FVec Ideal S512x128 .f32 :=
  mulf (multiReduction .add [1] S512x128 (shapeCast S512x16x128 x shapeCasts_S8192x128_S512x16x128) 0x00000000#32
      reduces_S512x16x128_S512x128 (.inl rfl) rfl)
    (broadcast S512x128 (Scalar.ofBits .f32 0x3D800000#32))

/-- The second stage: the first-hop rows `n` against the upper half `v0` of the weights plus the mean `m` against the
    lower half `v1`. -/
def layerK (v0 v1 : FVec Ideal S128x128 .f32) (m n : FVec Ideal S512x128 .f32) : FVec Ideal S512x128 .f32 :=
  addf (matmul dot_S512x128_S128x128_S512x128_1_0_0_1_n_n none n v0 (constant S512x128 .f32 0x00000000#32))
    (matmul dot_S512x128_S128x128_S512x128_1_0_0_1_n_n none m v1 (constant S512x128 .f32 0x00000000#32))

/-- The third stage: the 512 results summed sixteen at a time, times one sixteenth. -/
def tileK (h : FVec Ideal S512x128 .f32) : FVec Ideal S32x128 .f32 :=
  mulf (multiReduction .add [1] S32x128 (shapeCast S32x16x128 h shapeCasts_S512x128_S32x16x128) 0x00000000#32
      reduces_S32x16x128_S32x128 (.inl rfl) rfl)
    (broadcast S32x128 (Scalar.ofBits .f32 0x3D800000#32))

/-- The source side's stored value is the three stages composed (its last reshape is to the same shape). -/
theorem pay5_eq (v0 v1 : Vec Ideal S128x128 .f32) (v2 : Vec Ideal S8192x128 .f32) (v7 : Vec Ideal S512x128 .f32) :
    k0_pay5 (F := Ideal) v0 v1 v2 v7 = tileK (layerK v0 v1 (meanK v2) v7) := by
  unfold k0_pay5 tileK layerK meanK
  exact shapeCast_self _ _

/-- The destination side's stored value is the same function of its blocks as the source side's. -/
theorem tileD_eq_tileS (w2 : Vec Ideal S256x128 .f32) (nn : Vec Ideal S8192x128 .f32) (n : Vec Ideal S512x128 .f32) :
    tileD (F := Ideal) w2 nn n = tileS (F := Ideal) w2 nn n := by
  unfold tileD tileS k0_pay1 k0_pay6 k0_pay7 k0_pay5
  rfl

/-- The reference computes its destination side by the same operations as its source side. -/
theorem v15_eq_v19 (a4 : Vec Ideal S16384x128 .f32) (a5 : Vec Ideal S262144x128 .f32) (a6 : Vec Ideal S256x128 .f32) :
    Cert.ReferenceIdeal.ReadP.val_main_v15 (F := Ideal) a4 a5 a6 = Cert.ReferenceIdeal.ReadP.val_main_v19 (F := Ideal) a4 a5 a6 := by
  unfold Cert.ReferenceIdeal.ReadP.val_main_v15 Cert.ReferenceIdeal.ReadP.val_main_v19
    Cert.ReferenceIdeal.ReadP.val_main_v13 Cert.ReferenceIdeal.ReadP.val_main_v17
    Cert.ReferenceIdeal.ReadP.val_main_v12 Cert.ReferenceIdeal.ReadP.val_main_v16
    Cert.ReferenceIdeal.ReadP.val_main_v11 Cert.ReferenceIdeal.ReadP.val_main_v10
    Cert.ReferenceIdeal.ReadP.val_main_v8 Cert.ReferenceIdeal.ReadP.val_main_v9
    Cert.ReferenceIdeal.ReadP.val_main_v3 Cert.ReferenceIdeal.ReadP.val_main_v7
    Cert.ReferenceIdeal.ReadP.val_main_v1 Cert.ReferenceIdeal.ReadP.val_main_v5
    Cert.ReferenceIdeal.ReadP.val_main_v0 Cert.ReferenceIdeal.ReadP.val_main_v4
  rfl

/-- The kernel's mean of sixteen consecutive rows, at an index. -/
theorem meanK_apply (x : FVec Ideal S8192x128 .f32) (p : Fin 512) (q : Fin 128) :
    meanK x (ix2 p q)
      = (∑ k : Fin 16, x (ix2 (⟨16 * p.val + k.val, by omega⟩ : Fin 8192) q)) * Ideal.ofBits .f32 0x3D800000#32 := by
  unfold meanK
  rw [mulf_apply, broadcast_apply]
  refine congrArg (· * Ideal.ofBits .f32 0x3D800000#32) ?_
  refine (Ideal.multiReduction_add_single _ 0x00000000#32 reduces_S512x16x128_S512x128 (.inl rfl) rfl (ix2 p q)).trans ?_
  refine Finset.sum_congr rfl fun k _ => ?_
  have hk : k.val < 16 := k.isLt
  exact shapeCast_apply x shapeCasts_S8192x128_S512x16x128 _ (ix2 (⟨16 * p.val + k.val, by omega⟩ : Fin 8192) q) (by
    rewrite [Shape.rowMajor_val_two, Shape.rowMajor_val_three]
    show (16 * p.val + k.val) * 128 + q.val = (p.val * 16 + k.val) * 128 + q.val
    omega)

/-- The kernel's mean over sixteen consecutive results, at an index. -/
theorem tileK_apply (h : FVec Ideal S512x128 .f32) (p : Fin 32) (q : Fin 128) :
    tileK h (ix2 p q)
      = (∑ k : Fin 16, h (ix2 (⟨16 * p.val + k.val, by omega⟩ : Fin 512) q)) * Ideal.ofBits .f32 0x3D800000#32 := by
  unfold tileK
  rw [mulf_apply, broadcast_apply]
  refine congrArg (· * Ideal.ofBits .f32 0x3D800000#32) ?_
  refine (Ideal.multiReduction_add_single _ 0x00000000#32 reduces_S32x16x128_S32x128 (.inl rfl) rfl (ix2 p q)).trans ?_
  refine Finset.sum_congr rfl fun k _ => ?_
  have hk : k.val < 16 := k.isLt
  exact shapeCast_apply h shapeCasts_S512x128_S32x16x128 _ (ix2 (⟨16 * p.val + k.val, by omega⟩ : Fin 512) q) (by
    rewrite [Shape.rowMajor_val_two, Shape.rowMajor_val_three]
    show (16 * p.val + k.val) * 128 + q.val = (p.val * 16 + k.val) * 128 + q.val
    omega)

/-! The kernel's product of a 512×128 block with a 128×128 block, at an index: the operand indices of its dimension
    numbers, axis by axis, and the sum over the one contracted axis. -/

theorem lhsK_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhsK_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhsK_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhsK_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- Into a zero accumulator the product at `(p, c)` is the sum over the contracted axis. -/
theorem matmulK_apply (l : FVec Ideal S512x128 .f32) (r : FVec Ideal S128x128 .f32) (p : Fin 512) (c : Fin 128) :
    matmul dot_S512x128_S128x128_S512x128_1_0_0_1_n_n none l r (constant (F := Ideal) S512x128 .f32 0x00000000#32) (ix2 p c)
      = ∑ k : Fin 128, l (ix2 p k) * r (ix2 k c) := by
  refine (Ideal.matmul_constant_zero_apply dot_S512x128_S128x128_S512x128_1_0_0_1_n_n none l r (ix2 p c)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p c) ((ValueIdx.contrEquiv1 dot_S512x128_S128x128_S512x128_1_0_0_1_n_n 128 rfl rfl).symm k) = ix2 p k := funext fun a => Fin.ext (by
    match a with
    | ⟨0, _⟩ => exact lhsK_0 _ _
    | ⟨1, _⟩ => exact (lhsK_1 _ _).trans hk)
  have er : dot_S512x128_S128x128_S512x128_1_0_0_1_n_n.rhsIdx (ix2 p c) ((ValueIdx.contrEquiv1 dot_S512x128_S128x128_S512x128_1_0_0_1_n_n 128 rfl rfl).symm k) = ix2 k c := funext fun a => Fin.ext (by
    match a with
    | ⟨0, _⟩ => exact (rhsK_0 _ _).trans hk
    | ⟨1, _⟩ => exact rhsK_1 _ _)
  rw [el, er]

/-- The kernel's layer, at an index: the two products' sums. -/
theorem layerK_apply (v0 v1 : FVec Ideal S128x128 .f32) (m n : FVec Ideal S512x128 .f32) (p : Fin 512) (c : Fin 128) :
    layerK v0 v1 m n (ix2 p c)
      = (∑ k : Fin 128, n (ix2 p k) * v0 (ix2 k c)) + ∑ k : Fin 128, m (ix2 p k) * v1 (ix2 k c) := by
  unfold layerK
  rw [addf_apply, matmulK_apply, matmulK_apply]

open Cert.ReferenceIdeal.ReadP

/-- The reference's mean of the second-hop rows, on the slab of point `t`: rows `16 (512 t + p) + k` of the
    whole array are rows `16 p + k` of the slab. -/
theorem ref_mean (a2 : Vec Ideal S262144x128 .f32) (t : Fin cfg0.N) (p : Fin 512) (q : Fin 128) :
    val_main_v7 (F := Ideal) a2 (rowAt512 t (ix2 p q))
      = Ideal.div (0 + ∑ k : Fin 16, a2 (rowAt8192 t (ix2 (⟨16 * p.val + k.val, by omega⟩ : Fin 8192) q)))
          (Ideal.ofBits .f32 0x41800000#32) := by
  rw [val_main_v7_apply, val_main_v5_apply, val_main_v6_apply, val_main_cst_2_apply, val_main_cst_1_apply]
  simp only [Ideal.hostDivf_def, Ideal.ofBits_def, Ideal.ofBits_zero_f32]
  refine congrArg (fun S => Ideal.div (0 + S) (Ideal.ofBits .f32 0x41800000#32)) (Finset.sum_congr rfl fun k _ => ?_)
  rw [val_main_v4_apply]
  refine congrArg a2 (funext fun a => Fin.ext ?_)
  have hN : cfg0.N = 32 := N_0
  have ht := t.isLt
  match a with
  | ⟨0, _⟩ =>
    show (((512 * t.val + p.val) * 16 + k.val) * 128 + q.val) / 128 = 8192 * t.val + (16 * p.val + k.val)
    omega
  | ⟨1, _⟩ =>
    show (((512 * t.val + p.val) * 16 + k.val) * 128 + q.val) % 128 = q.val
    omega

/-- The reference's mean of the layer's rows, on the 32 rows of point `t`: rows `16 (32 t + p) + k` of the layer's
    result are rows `16 p + k` of the slab `[512 t, 512 t + 512)`. -/
theorem ref_tile (a1 : Vec Ideal S16384x128 .f32) (a2 : Vec Ideal S262144x128 .f32) (a6 : Vec Ideal S256x128 .f32)
    (t : Fin cfg0.N) (p : Fin 32) (q : Fin 128) :
    val_main_v19 (F := Ideal) a1 a2 a6 (rowAt32 t (ix2 p q))
      = Ideal.div (0 + ∑ k : Fin 16, val_main_v10 (F := Ideal) a1 a2 a6
            (rowAt512 t (ix2 (⟨16 * p.val + k.val, by omega⟩ : Fin 512) q)))
          (Ideal.ofBits .f32 0x41800000#32) := by
  rw [val_main_v19_apply, val_main_v17_apply, val_main_v18_apply, val_main_cst_6_apply, val_main_cst_5_apply]
  simp only [Ideal.hostDivf_def, Ideal.ofBits_def, Ideal.ofBits_zero_f32]
  refine congrArg (fun S => Ideal.div (0 + S) (Ideal.ofBits .f32 0x41800000#32)) (Finset.sum_congr rfl fun k _ => ?_)
  rw [val_main_v16_apply]
  refine congrArg (val_main_v10 (F := Ideal) a1 a2 a6) (funext fun a => Fin.ext ?_)
  have hN : cfg0.N = 32 := N_0
  have ht := t.isLt
  match a with
  | ⟨0, _⟩ =>
    show (((32 * t.val + p.val) * 16 + k.val) * 128 + q.val) / 128 = 512 * t.val + (16 * p.val + k.val)
    omega
  | ⟨1, _⟩ =>
    show (((32 * t.val + p.val) * 16 + k.val) * 128 + q.val) % 128 = q.val
    omega

/-- The reference's layer on the slab of point `t`: the sum over the 256 columns of the concatenation `[n, mean]`
    splits at 128 into the first-hop rows against the upper half of the weights and the mean against the lower half. -/
theorem ref_layer (a1 : Vec Ideal S16384x128 .f32) (a2 : Vec Ideal S262144x128 .f32) (a6 : Vec Ideal S256x128 .f32)
    (t : Fin cfg0.N) (p : Fin 512) (c : Fin 128) :
    val_main_v10 (F := Ideal) a1 a2 a6 (rowAt512 t (ix2 p c))
      = (∑ k : Fin 128, a1 (rowAt512 t (ix2 p k)) * rowsTop (F := Ideal) a6 (ix2 k c))
        + ∑ k : Fin 128, val_main_v7 (F := Ideal) a2 (rowAt512 t (ix2 p k)) * rowsBot (F := Ideal) a6 (ix2 k c) := by
  rw [val_main_v10_apply]
  refine (Fin.sum_univ_add (a := 128) (b := 128) _).trans ?_
  refine congrArg₂ (· + ·) (Finset.sum_congr rfl fun k _ => ?_) (Finset.sum_congr rfl fun k _ => ?_)
  · refine congrArg₂ (· * ·) ?_ ?_
    · unfold val_main_v9
      exact concatenate_pair_apply_left (t := Cert.ReferenceIdeal.S16384x256) 1 a1 (val_main_v7 (F := Ideal) a2)
        Cert.ReferenceIdeal.Gen.concatenates_S16384x128_S16384x128_S16384x256_d1
        (lidx_main_v10 (rowAt512 t (ix2 p c)) (Fin.castAdd 128 k)) rfl (rowAt512 t (ix2 p k)) (fun b => by
        match b with
        | ⟨0, _⟩ => rfl
        | ⟨1, _⟩ => rfl)
    · unfold rowsTop
      show a6 _ = a6 ((Rect.unit (s := S256x128) ![0, 0] S128x128.size inb_S256x128_S128x128_0_0).emb (ix2 k c))
      refine congrArg a6 (funext fun a => Fin.ext ?_)
      match a with
      | ⟨0, _⟩ =>
        show k.val = 0 + 1 * k.val
        omega
      | ⟨1, _⟩ =>
        show c.val = 0 + 1 * c.val
        omega
  · refine congrArg₂ (· * ·) ?_ ?_
    · unfold val_main_v9
      exact concatenate_pair_apply_right (t := Cert.ReferenceIdeal.S16384x256) 1 a1 (val_main_v7 (F := Ideal) a2)
        Cert.ReferenceIdeal.Gen.concatenates_S16384x128_S16384x128_S16384x256_d1
        (lidx_main_v10 (rowAt512 t (ix2 p c)) (Fin.natAdd 128 k)) rfl rfl (rowAt512 t (ix2 p k)) (fun b => by
        match b with
        | ⟨0, _⟩ => exact fun _ => rfl
        | ⟨1, _⟩ => exact fun h => (h rfl).elim) (by
        show k.val + 128 = 128 + k.val
        omega)
    · unfold rowsBot
      show a6 _ = a6 ((Rect.unit (s := S256x128) ![128, 0] S128x128.size inb_S256x128_S128x128_128_0).emb (ix2 k c))
      refine congrArg a6 (funext fun a => Fin.ext ?_)
      match a with
      | ⟨0, _⟩ =>
        show 128 + k.val = 128 + 1 * k.val
        omega
      | ⟨1, _⟩ =>
        show c.val = 0 + 1 * c.val
        omega

/-- On the slab of point `t` the kernel's mean of the second-hop rows is the reference's. -/
theorem meanK_slab (a2 : Vec Ideal S262144x128 .f32) (t : Fin cfg0.N) (i : S512x128.Idx) :
    meanK (fun q => a2 (rowAt8192 t q)) i = val_main_v7 (F := Ideal) a2 (rowAt512 t i) := by
  obtain ⟨p, q, rfl⟩ : ∃ (p : Fin 512) (q : Fin 128), i = ix2 p q := ⟨i 0, i 1, eq_ix2 i⟩
  rw [meanK_apply, ref_mean, zero_add, mul_sixteenth]

/-- On that slab the kernel's two products add up to the reference's one product with the concatenation. -/
theorem layerK_slab (a1 : Vec Ideal S16384x128 .f32) (a2 : Vec Ideal S262144x128 .f32) (a6 : Vec Ideal S256x128 .f32)
    (t : Fin cfg0.N) (i : S512x128.Idx) :
    layerK (rowsTop (F := Ideal) a6) (rowsBot (F := Ideal) a6) (fun i => val_main_v7 (F := Ideal) a2 (rowAt512 t i))
        (fun q => a1 (rowAt512 t q)) i
      = val_main_v10 (F := Ideal) a1 a2 a6 (rowAt512 t i) := by
  obtain ⟨p, c, rfl⟩ : ∃ (p : Fin 512) (c : Fin 128), i = ix2 p c := ⟨i 0, i 1, eq_ix2 i⟩
  rw [layerK_apply, ref_layer]

end Tile

open Idealize.ShloMosaic.ValueIdx Cert.ReferenceIdeal.ReadP Tile

/-- Source side: rows `[32 t, 32 t + 32)` of the reference's mean of the first layer over the source neighbours. -/
theorem tileS_eq (a1 : Vec Ideal S16384x128 .f32) (a2 : Vec Ideal S262144x128 .f32) (a6 : Vec Ideal S256x128 .f32)
    (t : Fin cfg0.N) (j : S32x128.Idx) :
    tileS (F := Ideal) a6 (fun q => a2 (rowAt8192 t q)) (fun q => a1 (rowAt512 t q)) j
      = Cert.ReferenceIdeal.ReadP.val_main_v19 (F := Ideal) a1 a2 a6 (rowAt32 t j) := by
  obtain ⟨p, q, rfl⟩ : ∃ (p : Fin 32) (q : Fin 128), j = ix2 p q := ⟨j 0, j 1, eq_ix2 j⟩
  unfold tileS
  rw [pay5_eq,
    show meanK (fun q => a2 (rowAt8192 t q)) = fun i => val_main_v7 (F := Ideal) a2 (rowAt512 t i) from
      funext (meanK_slab a2 t),
    show layerK (rowsTop (F := Ideal) a6) (rowsBot (F := Ideal) a6) (fun i => val_main_v7 (F := Ideal) a2 (rowAt512 t i))
        (fun q => a1 (rowAt512 t q)) = fun i => val_main_v10 (F := Ideal) a1 a2 a6 (rowAt512 t i) from
      funext (layerK_slab a1 a2 a6 t),
    tileK_apply, ref_tile, zero_add, mul_sixteenth]

/-- Destination side: the same rows of the reference's mean of the first layer over the destination neighbours. -/
theorem tileD_eq (a4 : Vec Ideal S16384x128 .f32) (a5 : Vec Ideal S262144x128 .f32) (a6 : Vec Ideal S256x128 .f32)
    (t : Fin cfg0.N) (j : S32x128.Idx) :
    tileD (F := Ideal) a6 (fun q => a5 (rowAt8192 t q)) (fun q => a4 (rowAt512 t q)) j
      = Cert.ReferenceIdeal.ReadP.val_main_v15 (F := Ideal) a4 a5 a6 (rowAt32 t j) := by
  rw [tileD_eq_tileS, v15_eq_v19]
  exact tileS_eq a4 a5 a6 t j

end Cert.Bridge

end
-- ==== Proof.ValHead.lean ====
/-
  The head of the network over the two complete tables is the reference's: the second layer's two products per side add up
  to the reference's one product of a concatenation with `w2`, likewise the first dense layer with `d1`; the rectifier,
  the remaining products, the row maximum, the exponential, the row sum and the quotient are the same operations on both
  sides, read at the extended reals.
-/
import proofs.«127706_g9603546873884_cont_9to1c4b_371_2_alg».proof.Proof.KI.Setup
import proofs.«127706_g9603546873884_cont_9to1c4b_371_2_alg».proof.Proof.RefRead
import Idealize.ShloMosaic.PureOps.Ideal.Laws
import Idealize.ShloMosaic.Lib.ValueIdx
import Idealize.ShloMosaic.Lib.Pipeline.Value
import Idealize.ShloMosaic.Lib.KernelVsHost

set_option maxRecDepth 16384

noncomputable section

namespace Cert.Bridge

open Idealize.ShloMosaic Idealize.ShloMosaic.TcCoe Idealize.SL.Sem
open Cert.KernelIdeal Cert.KernelIdeal.Gen Cert.KernelIdeal.Trk
open Idealize.ShloMosaic.ValueIdx (ix1 ix2 eq_ix1 eq_ix2 contrEquiv1 contrEquiv1_symm_val)

/-! The auxiliary lemmas of this module live in `Cert.Bridge.Head`. -/
namespace Head

/-! ## A 256-long axis in two halves -/

/-- Position `k` of the first half and of the second half of a 256-long axis. -/
abbrev lo (k : Fin 128) : Fin 256 := ⟨k.val, Nat.lt_of_lt_of_le k.isLt (by decide)⟩
abbrev hi (k : Fin 128) : Fin 256 := ⟨128 + k.val, Nat.add_lt_add_left k.isLt 128⟩

/-- A sum over the 256 positions is the sum over the first half plus the sum over the second half: only the
    commutative monoid structure of the extended reals is used. -/
theorem sum_halves (f : Fin 256 → EReal) :
    ∑ k : Fin 256, f k = ∑ k : Fin 128, f (lo k) + ∑ k : Fin 128, f (hi k) :=
  Fin.sum_univ_add (M := EReal) (a := 128) (b := 128) f

/-- The upper 128 rows of a 256-row block at (k, c): the block at (k, c). -/
theorem rowsTop_apply (w : Vec Ideal S256x128 .f32) (k c : Fin 128) :
    rowsTop (F := Ideal) w (ix2 k c) = w (ix2 (lo k) c) := by
  unfold rowsTop
  refine congrArg w (funext fun a => Fin.ext ?_)
  match a with
  | ⟨0, _⟩ => show 0 + 1 * k.val = k.val; omega
  | ⟨1, _⟩ => show 0 + 1 * c.val = c.val; omega

/-- The lower 128 rows at (k, c): the block at (128 + k, c). -/
theorem rowsBot_apply (w : Vec Ideal S256x128 .f32) (k c : Fin 128) :
    rowsBot (F := Ideal) w (ix2 k c) = w (ix2 (hi k) c) := by
  unfold rowsBot
  refine congrArg w (funext fun a => Fin.ext ?_)
  match a with
  | ⟨0, _⟩ => show 128 + 1 * k.val = 128 + k.val; omega
  | ⟨1, _⟩ => show 0 + 1 * c.val = c.val; omega

/-! ## The two contractions at an index -/

/-- The reference's dimension record for a [1024, 256] × [256, 128] product. -/
abbrev dotR256 := Cert.ReferenceIdeal.dot_S1024x256_S256x128_S1024x128_1_0_0_1_n_n

theorem lhsK128_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsK128_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsK128_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsK128_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The kernel's [1024, 128] × [128, 128] product into a zero block, at (p, q): the sum over the 128 shared positions. -/
theorem mm128_apply (l : FVec Ideal S1024x128 .f32) (r : FVec Ideal S128x128 .f32) (p : Fin 1024) (q : Fin 128) :
    matmul dot_S1024x128_S128x128_S1024x128_1_0_0_1_n_n none l r (constant (F := Ideal) S1024x128 .f32 0x00000000#32) (ix2 p q)
      = ∑ k : Fin 128, l (ix2 p k) * r (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhsK128_0 _ _
    | ⟨1, _⟩ => exact (lhsK128_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhsK128_0 _ _).trans hk
    | ⟨1, _⟩ => exact rhsK128_1 _ _)
  rw [el, er]

/-- The reference's [1024, 256] × [256, 128] product at (p, q): the sum over the 256 shared positions. -/
theorem dot256_apply (l : FVec Ideal Cert.ReferenceIdeal.S1024x256 .f32) (r : FVec Ideal S256x128 .f32) (p : Fin 1024) (q : Fin 128) :
    Host.dotGeneral (F := Ideal) dotR256 none l r (ix2 p q) = ∑ k : Fin 256, l (ix2 p k) * r (ix2 k q) := by
  simp only [Host.dotGeneral]
  rw [Ideal.dotGeneral_apply, ← Equiv.sum_comp (contrEquiv1 dotR256 256 rfl rfl).symm]
  refine Finset.sum_congr rfl fun k _ => ?_
  have hk := contrEquiv1_symm_val dotR256 256 rfl rfl k
  have el : dotR256.lhsIdx (ix2 p q) ((contrEquiv1 dotR256 256 rfl rfl).symm k) = ix2 p k := funext fun a => Fin.ext (by
    match a with
    | ⟨0, _⟩ => exact Cert.ReferenceIdeal.ReadP.lhs_main_v22_0 _ _
    | ⟨1, _⟩ => exact (Cert.ReferenceIdeal.ReadP.lhs_main_v22_1 _ _).trans hk)
  have er : dotR256.rhsIdx (ix2 p q) ((contrEquiv1 dotR256 256 rfl rfl).symm k) = ix2 k q := funext fun a => Fin.ext (by
    match a with
    | ⟨0, _⟩ => exact (Cert.ReferenceIdeal.ReadP.rhs_main_v22_0 _ _).trans hk
    | ⟨1, _⟩ => exact Cert.ReferenceIdeal.ReadP.rhs_main_v22_1 _ _)
  rw [el, er]

/-! ## A concatenation along the columns, read in each half -/

/-- The two [1024, 128] arrays laid side by side, at a column of the first half: the first array there. -/
theorem cat_lo (x y : FVec Ideal S1024x128 .f32) (h : Shape.Concatenates [S1024x128, S1024x128] Cert.ReferenceIdeal.S1024x256 1)
    (p : Fin 1024) (k : Fin 128) :
    concatenate Cert.ReferenceIdeal.S1024x256 1 [⟨S1024x128, x⟩, ⟨S1024x128, y⟩] h (ix2 p (lo k)) = x (ix2 p k) :=
  concatenate_pair_apply_left 1 x y h (ix2 p (lo k)) rfl (ix2 p k) (fun b => by
    match b with
    | ⟨0, _⟩ => rfl
    | ⟨1, _⟩ => rfl)

/-- At a column of the second half: the second array, 128 columns back. -/
theorem cat_hi (x y : FVec Ideal S1024x128 .f32) (h : Shape.Concatenates [S1024x128, S1024x128] Cert.ReferenceIdeal.S1024x256 1)
    (p : Fin 1024) (k : Fin 128) :
    concatenate Cert.ReferenceIdeal.S1024x256 1 [⟨S1024x128, x⟩, ⟨S1024x128, y⟩] h (ix2 p (hi k)) = y (ix2 p k) :=
  concatenate_pair_apply_right 1 x y h (ix2 p (hi k)) rfl rfl (ix2 p k) (fun b hb => by
    match b, hb with
    | ⟨0, _⟩, _ => rfl
    | ⟨1, _⟩, hb => exact absurd (Fin.ext rfl) hb)
    (by show k.val + 128 = 128 + k.val; omega)

/-! ## One product of a concatenation is two products added -/

/-- The kernel's two products, of `x` with the upper rows of `w` and of `y` with its lower rows, added, are the
    reference's one product of `[x, y]` with `w`: the sum over the 256 shared positions falls into its two halves. -/
theorem dotcat (x y : FVec Ideal S1024x128 .f32) (w : FVec Ideal S256x128 .f32)
    (h : Shape.Concatenates [S1024x128, S1024x128] Cert.ReferenceIdeal.S1024x256 1) :
    addf (matmul (φ₂ := .f32) dot_S1024x128_S128x128_S1024x128_1_0_0_1_n_n none x (rowsTop (F := Ideal) w) (constant (F := Ideal) S1024x128 .f32 0x00000000#32))
         (matmul (φ₂ := .f32) dot_S1024x128_S128x128_S1024x128_1_0_0_1_n_n none y (rowsBot (F := Ideal) w) (constant (F := Ideal) S1024x128 .f32 0x00000000#32))
      = Host.dotGeneral (F := Ideal) dotR256 none (concatenate Cert.ReferenceIdeal.S1024x256 1 [⟨S1024x128, x⟩, ⟨S1024x128, y⟩] h) w := by
  funext i
  obtain ⟨p, q, rfl⟩ : ∃ (p : Fin 1024) (q : Fin 128), i = ix2 p q := ⟨i 0, i 1, eq_ix2 i⟩
  rw [dot256_apply, sum_halves]
  simp only [addf, Ideal.addf_def]
  rw [mm128_apply, mm128_apply]
  refine congrArg₂ (· + ·) (Finset.sum_congr rfl fun k _ => ?_) (Finset.sum_congr rfl fun k _ => ?_)
  · rw [rowsTop_apply, cat_lo]
  · rw [rowsBot_apply, cat_hi]

/-! ## The stages that are one operation on both sides -/

/-- A product into a zero block is the reference's product; the kernel's and the reference's dimension records are one record. -/
theorem mm_d2 (l : FVec Ideal S1024x128 .f32) (r : FVec Ideal S128x64 .f32) :
    matmul dot_S1024x128_S128x64_S1024x64_1_0_0_1_n_n none l r (constant (F := Ideal) S1024x64 .f32 0x00000000#32)
      = Host.dotGeneral (F := Ideal) Cert.ReferenceIdeal.dot_S1024x128_S128x64_S1024x64_1_0_0_1_n_n none l r :=
  matmul_zero_eq_dotGeneral dot_S1024x128_S128x64_S1024x64_1_0_0_1_n_n none l r
theorem mm_d3 (l : FVec Ideal S1024x64 .f32) (r : FVec Ideal S64x8 .f32) :
    matmul dot_S1024x64_S64x8_S1024x8_1_0_0_1_n_n none l r (constant (F := Ideal) S1024x8 .f32 0x00000000#32)
      = Host.dotGeneral (F := Ideal) Cert.ReferenceIdeal.dot_S1024x64_S64x8_S1024x8_1_0_0_1_n_n none l r :=
  matmul_zero_eq_dotGeneral dot_S1024x64_S64x8_S1024x8_1_0_0_1_n_n none l r
theorem mm_d4 (l : FVec Ideal S1024x8 .f32) (r : FVec Ideal S8x2 .f32) :
    matmul dot_S1024x8_S8x2_S1024x2_1_0_0_1_n_n none l r (constant (F := Ideal) S1024x2 .f32 0x00000000#32)
      = Host.dotGeneral (F := Ideal) Cert.ReferenceIdeal.dot_S1024x8_S8x2_S1024x2_1_0_0_1_n_n none l r :=
  matmul_zero_eq_dotGeneral dot_S1024x8_S8x2_S1024x2_1_0_0_1_n_n none l r

/-- The rectifier: the maximum with the kernel's splat of zero is the maximum with the reference's broadcast of its zero constant. -/
theorem relu_eq {s : Shape} (x : FVec Ideal s .f32) (h : Cert.ReferenceIdeal.S_.BroadcastsInDim s (![] : Fin 0 → Fin s.rank)) :
    maximumf x (broadcast s (Scalar.ofBits (F := Ideal) .f32 0x00000000#32))
      = maximumf x (broadcastInDim s ![] h (constant (F := Ideal) Cert.ReferenceIdeal.S_ .f32 0x00000000#32)) := by
  rw [broadcastInDim_constant]

open Cert.ReferenceIdeal.ReadP (val_main_v15 val_main_v19 val_main_v20 val_main_v21 val_main_v22 val_main_v23 val_main_v24 val_main_v25
  val_main_v26 val_main_v27 val_main_v28 val_main_v29 val_main_v30 val_main_v31 val_main_v32 val_main_v33 val_main_v34 val_main_v35
  val_main_v36 val_main_v37 val_main_v38 val_main_v39 val_main_v40 val_main_v41 val_main_v42 val_main_call0_v0 val_main_call0_cst
  val_main_call1_v0 val_main_call1_cst val_main_call2_v0 val_main_call2_cst val_main_cst_7 val_main_cst_8 val_main_cst_9)

/-! ## The logits -/

/-- The kernel's logits, from the two tables at the reference's second-hop means, are the reference's logits. -/
theorem pay3_eq (a0 a3 : Vec Ideal S1024x128 .f32) (a1 a4 : Vec Ideal S16384x128 .f32) (a2 a5 : Vec Ideal S262144x128 .f32)
    (a6 a7 : Vec Ideal S256x128 .f32) (a8 : Vec Ideal S128x64 .f32) (a9 : Vec Ideal S64x8 .f32) (a10 : Vec Ideal S8x2 .f32) :
    k0_pay3 (F := Ideal) (rowsTop a6) (rowsBot a6) a0 (val_main_v19 (F := Ideal) a1 a2 a6) a3 (val_main_v15 (F := Ideal) a4 a5 a6)
        (rowsTop a7) (rowsBot a7) a8 a9 a10
      = val_main_v31 (F := Ideal) a0 a1 a2 a3 a4 a5 a6 a7 a8 a9 a10 := by
  unfold k0_pay3
  simp only []
  rw [dotcat a0 (val_main_v19 (F := Ideal) a1 a2 a6) a6 Cert.ReferenceIdeal.Facts₀.concatenates_S1024x128_S1024x128_S1024x256_d1,
    dotcat a3 (val_main_v15 (F := Ideal) a4 a5 a6) a6 Cert.ReferenceIdeal.Facts₀.concatenates_S1024x128_S1024x128_S1024x256_d1,
    dotcat _ _ a7 Cert.ReferenceIdeal.Facts₀.concatenates_S1024x128_S1024x128_S1024x256_d1,
    relu_eq _ Cert.ReferenceIdeal.Facts₀.bcast_S_S1024x128, mm_d2,
    relu_eq _ Cert.ReferenceIdeal.Facts₀.bcast_S_S1024x64, mm_d3,
    relu_eq _ Cert.ReferenceIdeal.Facts₀.bcast_S_S1024x8, mm_d4]
  rfl

/-! ## The softmax over the two columns -/

/-- A length-1024 vector laid down the two columns of a [1024, 2] block: the kernel's cast to a column followed by its
    broadcast, and the reference's two broadcasts in dimensions, both read the vector at the row. -/
theorem col_eq (v : FVec Ideal S1024 .f32) (hsc : S1024.ShapeCasts S1024x1) (hb : S1024x1.Broadcasts S1024x2)
    (h1 : Cert.ReferenceIdeal.S1024.BroadcastsInDim Cert.ReferenceIdeal.S1024x1 (![0] : Fin 1 → Fin Cert.ReferenceIdeal.S1024x1.rank))
    (h2 : Cert.ReferenceIdeal.S1024x1.BroadcastsInDim Cert.ReferenceIdeal.S1024x2 (![0, 1] : Fin 2 → Fin Cert.ReferenceIdeal.S1024x2.rank)) :
    broadcastTo S1024x2 (shapeCast S1024x1 v hsc) hb
      = broadcastInDim Cert.ReferenceIdeal.S1024x2 ![0, 1] h2 (broadcastInDim Cert.ReferenceIdeal.S1024x1 ![0] h1 v) := by
  funext i
  obtain ⟨p, q, rfl⟩ : ∃ (p : Fin 1024) (q : Fin 2), i = ix2 p q := ⟨i 0, i 1, eq_ix2 i⟩
  have hl : broadcastTo S1024x2 (shapeCast S1024x1 v hsc) hb (ix2 p q) = v (ix1 p) := by
    rw [broadcastTo_apply (shapeCast S1024x1 v hsc) hb (ix2 p q) (ix2 p (0 : Fin 1)) (fun a => by
      match a with
      | ⟨0, _⟩ => show p.val = if (1024 : Nat) = 1 then 0 else p.val; rw [if_neg (by decide)]
      | ⟨1, _⟩ => show 0 = if (1 : Nat) = 1 then 0 else q.val; rw [if_pos rfl])]
    exact shapeCast_apply v hsc (ix2 p (0 : Fin 1)) (ix1 p) (by
      rw [Shape.rowMajor_val_one, Shape.rowMajor_val_two]; show p.val = p.val * 1 + 0; omega)
  have hr : broadcastInDim Cert.ReferenceIdeal.S1024x2 ![0, 1] h2 (broadcastInDim Cert.ReferenceIdeal.S1024x1 ![0] h1 v) (ix2 p q) = v (ix1 p) := by
    rw [broadcastInDim_apply _ h2 _ (ix2 p q) (ix2 p (0 : Fin 1)) (fun a => by
      match a with
      | ⟨0, _⟩ => show p.val = if (1024 : Nat) = 1 then 0 else p.val; rw [if_neg (by decide)]
      | ⟨1, _⟩ => show 0 = if (1 : Nat) = 1 then 0 else q.val; rw [if_pos rfl])]
    exact broadcastInDim_apply _ h1 v (ix2 p (0 : Fin 1)) (ix1 p) (fun a => by
      match a with
      | ⟨0, _⟩ => show p.val = if (1024 : Nat) = 1 then 0 else p.val; rw [if_neg (by decide)])
  rw [hl, hr]

/-- The row maximum from −∞: the kernel's reduction is the reference's maximum of −∞ with its reduction from −∞. -/
theorem rowmax_eq (z : FVec Ideal S1024x2 .f32) (hr : S1024x2.Reduces [1] S1024) (hφ : FKind.Formats .f32)
    (hacc : (0xFF800000#32 : BitVec 32) = FKind.maximumf.neutral .f32 hφ)
    (hr' : Cert.ReferenceIdeal.S1024x2.ReducesTo [1] Cert.ReferenceIdeal.S1024) (hu : 0 < Cert.ReferenceIdeal.S_.numel)
    (hb : Cert.ReferenceIdeal.S_.BroadcastsInDim Cert.ReferenceIdeal.S1024 (![] : Fin 0 → Fin Cert.ReferenceIdeal.S1024.rank)) :
    multiReduction .maximumf [1] S1024 z 0xFF800000#32 hr hφ hacc
      = maximumf (broadcastInDim Cert.ReferenceIdeal.S1024 ![] hb (constant (F := Ideal) Cert.ReferenceIdeal.S_ .f32 0xFF800000#32))
          (Host.reduce FloatOps.maximumf z (constant (F := Ideal) Cert.ReferenceIdeal.S_ .f32 0xFF800000#32) hr' hu) := by
  funext j
  refine (Ideal.multiReduction_maximumf_single z _ hr hφ hacc j).trans ?_
  rw [broadcastInDim_constant]
  simp only [maximumf, Ideal.maximumf_def]
  rw [Host.reduce_eq_fold_single FloatOps.maximumf z _ hr' hr hu j]
  show Finset.fold max (Ideal.ofBits .f32 0xFF800000#32) (z ∘ hr.lift j) Finset.univ
      = max (Ideal.ofBits .f32 0xFF800000#32) (Finset.fold max (Ideal.ofBits .f32 0xFF800000#32) (z ∘ hr.lift j) Finset.univ)
  exact (max_eq_right ((Finset.le_fold_max _).mpr (Or.inl le_rfl))).symm

/-- The row sum from zero: the kernel's reduction is the reference's. -/
theorem rowsum_eq (e : FVec Ideal S1024x2 .f32) (hr : S1024x2.Reduces [1] S1024) (hφ : FKind.Formats .f32)
    (hacc : (0x00000000#32 : BitVec 32) = FKind.add.neutral .f32 hφ)
    (hr' : Cert.ReferenceIdeal.S1024x2.ReducesTo [1] Cert.ReferenceIdeal.S1024) (hu : 0 < Cert.ReferenceIdeal.S_.numel) :
    multiReduction .add [1] S1024 e 0x00000000#32 hr hφ hacc
      = Host.reduceAdd e (constant (F := Ideal) Cert.ReferenceIdeal.S_ .f32 0x00000000#32) hr' hu :=
  multiReduction_add_eq_hostReduceAdd e _ hr hφ hacc _ hr' hu Ideal.ofBits_zero_f32

/-- The shape of the softmax, over abstract pieces: if the two ways of laying a vector down the columns agree, the two row
    maxima are one vector and the two row sums agree, then the two quotients of exponentials agree (the exponential and
    the quotient are one function on both sides at the extended reals). -/
theorem softmax_congr {colK colR : FVec Ideal S1024 .f32 → FVec Ideal S1024x2 .f32} (hcol : ∀ v, colK v = colR v)
    {mK mR : FVec Ideal S1024 .f32} (hm : mK = mR)
    {sumK sumR : FVec Ideal S1024x2 .f32 → FVec Ideal S1024 .f32} (hs : ∀ e, sumK e = sumR e) (z : FVec Ideal S1024x2 .f32) :
    divf (exp (subf z (colK mK))) (colK (sumK (exp (subf z (colK mK)))))
      = Host.divf (Host.exp (subf z (colR mR))) (colR (sumR (Host.exp (subf z (colR mR))))) := by
  subst hm
  rw [hcol, hcol, hs]
  rfl

/-- The softmax of a [1024, 2] block of logits: the kernel's (row maximum cast to a column and broadcast, difference,
    exponential, row sum cast and broadcast, quotient) is the reference's. -/
theorem tail_eq (z : FVec Ideal S1024x2 .f32) :
    k0_pay2 (F := Ideal) z (shapeCast S1024x1
        (multiReduction .maximumf [1] S1024 z 0xFF800000#32 reduces_S1024x2_S1024 (.inl rfl) rfl) shapeCasts_S1024_S1024x1)
      = Host.divf
          (Host.exp (subf z (broadcastInDim Cert.ReferenceIdeal.S1024x2 ![0, 1] Cert.ReferenceIdeal.Facts₀.bcast_S1024x1_S1024x2_0_1
            (broadcastInDim Cert.ReferenceIdeal.S1024x1 ![0] Cert.ReferenceIdeal.Facts₀.bcast_S1024_S1024x1_0
              (maximumf (broadcastInDim Cert.ReferenceIdeal.S1024 ![] Cert.ReferenceIdeal.Facts₀.bcast_S_S1024
                  (constant (F := Ideal) Cert.ReferenceIdeal.S_ .f32 0xFF800000#32))
                (Host.reduce FloatOps.maximumf z (constant (F := Ideal) Cert.ReferenceIdeal.S_ .f32 0xFF800000#32)
                  Cert.ReferenceIdeal.Facts₀.reducesTo_S1024x2_S1024_d1 Cert.ReferenceIdeal.Facts₀.h_S_))))))
          (broadcastInDim Cert.ReferenceIdeal.S1024x2 ![0, 1] Cert.ReferenceIdeal.Facts₀.bcast_S1024x1_S1024x2_0_1
            (broadcastInDim Cert.ReferenceIdeal.S1024x1 ![0] Cert.ReferenceIdeal.Facts₀.bcast_S1024_S1024x1_0
              (Host.reduceAdd
                (Host.exp (subf z (broadcastInDim Cert.ReferenceIdeal.S1024x2 ![0, 1] Cert.ReferenceIdeal.Facts₀.bcast_S1024x1_S1024x2_0_1
                  (broadcastInDim Cert.ReferenceIdeal.S1024x1 ![0] Cert.ReferenceIdeal.Facts₀.bcast_S1024_S1024x1_0
                    (maximumf (broadcastInDim Cert.ReferenceIdeal.S1024 ![] Cert.ReferenceIdeal.Facts₀.bcast_S_S1024
                        (constant (F := Ideal) Cert.ReferenceIdeal.S_ .f32 0xFF800000#32))
                      (Host.reduce FloatOps.maximumf z (constant (F := Ideal) Cert.ReferenceIdeal.S_ .f32 0xFF800000#32)
                        Cert.ReferenceIdeal.Facts₀.reducesTo_S1024x2_S1024_d1 Cert.ReferenceIdeal.Facts₀.h_S_))))))
                (constant (F := Ideal) Cert.ReferenceIdeal.S_ .f32 0x00000000#32)
                Cert.ReferenceIdeal.Facts₀.reducesTo_S1024x2_S1024_d1 Cert.ReferenceIdeal.Facts₀.h_S_))) := by
  unfold k0_pay2
  simp only []
  have key := softmax_congr
    (colK := fun v => broadcastTo S1024x2 (shapeCast S1024x1 v shapeCasts_S1024_S1024x1) broadcasts_S1024x1_S1024x2)
    (colR := fun v => broadcastInDim Cert.ReferenceIdeal.S1024x2 ![0, 1] Cert.ReferenceIdeal.Facts₀.bcast_S1024x1_S1024x2_0_1
      (broadcastInDim Cert.ReferenceIdeal.S1024x1 ![0] Cert.ReferenceIdeal.Facts₀.bcast_S1024_S1024x1_0 v))
    (fun v => col_eq v shapeCasts_S1024_S1024x1 broadcasts_S1024x1_S1024x2 Cert.ReferenceIdeal.Facts₀.bcast_S1024_S1024x1_0
      Cert.ReferenceIdeal.Facts₀.bcast_S1024x1_S1024x2_0_1)
    (rowmax_eq z reduces_S1024x2_S1024 (.inl rfl) rfl Cert.ReferenceIdeal.Facts₀.reducesTo_S1024x2_S1024_d1
      Cert.ReferenceIdeal.Facts₀.h_S_ Cert.ReferenceIdeal.Facts₀.bcast_S_S1024)
    (sumK := fun e => multiReduction .add [1] S1024 e 0x00000000#32 reduces_S1024x2_S1024 (.inl rfl) rfl)
    (sumR := fun e => Host.reduceAdd e (constant (F := Ideal) Cert.ReferenceIdeal.S_ .f32 0x00000000#32)
      Cert.ReferenceIdeal.Facts₀.reducesTo_S1024x2_S1024_d1 Cert.ReferenceIdeal.Facts₀.h_S_)
    (fun e => rowsum_eq e reduces_S1024x2_S1024 (.inl rfl) rfl Cert.ReferenceIdeal.Facts₀.reducesTo_S1024x2_S1024_d1
      Cert.ReferenceIdeal.Facts₀.h_S_) z
  exact key

end Head

/-- The output block, with the tables at the reference's two second-hop means, is the reference's result. -/
theorem head_eq (a0 a3 : Vec Ideal S1024x128 .f32) (a1 a4 : Vec Ideal S16384x128 .f32) (a2 a5 : Vec Ideal S262144x128 .f32)
    (a6 a7 : Vec Ideal S256x128 .f32) (a8 : Vec Ideal S128x64 .f32) (a9 : Vec Ideal S64x8 .f32) (a10 : Vec Ideal S8x2 .f32) :
    headOut (F := Ideal) a0 a3 a6 a7 a8 a9 a10 (Cert.ReferenceIdeal.ReadP.val_main_v19 (F := Ideal) a1 a2 a6)
        (Cert.ReferenceIdeal.ReadP.val_main_v15 (F := Ideal) a4 a5 a6)
      = Cert.ReferenceIdeal.ReadP.val_main_v42 (F := Ideal) a0 a1 a2 a3 a4 a5 a6 a7 a8 a9 a10 := by
  unfold headOut k0_pay4
  simp only []
  rw [Head.pay3_eq]
  exact Head.tail_eq _

end Cert.Bridge

end
-- ==== Proof.Bridge.lean ====
/-
  The kernel's result is the reference's. The two kept tables, complete, are the reference's two second-hop means (tile by
  tile: row `r` of a table lies in the tile of point `r / 32` at place `r % 32`); every block a constant index map stages is
  its whole array; so the block the last point stores is the head of the network over the argument arrays and those two
  means, which is the reference's last stage.
-/
import proofs.«127706_g9603546873884_cont_9to1c4b_371_2_alg».proof.Proof.KI.Result
import proofs.«127706_g9603546873884_cont_9to1c4b_371_2_alg».proof.Proof.KI.Blocks
import proofs.«127706_g9603546873884_cont_9to1c4b_371_2_alg».proof.Proof.ValTile
import proofs.«127706_g9603546873884_cont_9to1c4b_371_2_alg».proof.Proof.ValHead

set_option maxRecDepth 16384

noncomputable section

namespace Cert.Bridge

open Idealize.ShloMosaic Idealize.ShloMosaic.TcCoe Idealize.SL.Sem
open Cert.KernelIdeal Cert.KernelIdeal.Gen Cert.KernelIdeal.Trk

variable (m : (ℓ : Loc Cert.KernelIdeal.nD Cert.KernelIdeal.τ Cert.KernelIdeal.sig) → Buf (Elt Ideal) ℓ)

/-- A row of a table is row `r % 32` of the tile of point `r / 32`. -/
theorem rowAt32_ptOf (y : S1024x128.Idx) : rowAt32 (ptOf y) (inTile y) = y := by
  funext a
  match a with
  | ⟨0, _⟩ => exact Fin.ext (by
      show 32 * ((y 0).val / 32) + (y 0).val % 32 = (y 0).val
      omega)
  | ⟨1, _⟩ => exact Fin.ext rfl

/-- The complete source-side table is the reference's mean of the first layer over the source neighbours. -/
theorem tblS_eq (c : Dev Cert.KernelIdeal.nD) :
    tblS (F := Ideal) m c = Cert.ReferenceIdeal.ReadP.val_main_v19 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) := by
  funext y
  unfold tblS
  rw [blkW2_eq, blkSnn_eq, blkSneg_eq]
  exact (tileS_eq _ _ _ (ptOf y) (inTile y)).trans (congrArg _ (rowAt32_ptOf y))

/-- The complete destination-side table is the reference's mean over the destination neighbours. -/
theorem tblD_eq (c : Dev Cert.KernelIdeal.nD) :
    tblD (F := Ideal) m c = Cert.ReferenceIdeal.ReadP.val_main_v15 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  funext y
  unfold tblD
  rw [blkW2_eq, blkDnn_eq, blkDneg_eq]
  exact (tileD_eq _ _ _ (ptOf y) (inTile y)).trans (congrArg _ (rowAt32_ptOf y))

/-- The block the last point stores is the reference's last stage of the argument arrays. -/
theorem out_eq (c : Dev Cert.KernelIdeal.nD) :
    outBlk (F := Ideal) m c lastPt
      = Cert.ReferenceIdeal.ReadP.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  unfold outBlk
  rw [blkSrc_eq, blkDst_eq, blkW2_eq, blkD1_eq, blkD2_eq, blkD3_eq, blkD4_eq, tblS_eq, tblD_eq]
  exact head_eq _ _ _ _ _ _ _ _ _ _ _

end Cert.Bridge

end
-- ==== Proof.lean ====
/-
  The certificate of a fused two-hop neighbour-mean network with a dense classifier head, against its jnp reference.

  The kernel streams the two second-hop feature arrays in 32 grid points. Each point averages its second-hop rows sixteen
  at a time, applies the layer `[n, mean] · w2` as two products, averages the results sixteen at a time and keeps the 32
  rows so obtained in a table it carries between points; the last point reads the two complete tables and runs the second
  layer, three rectified dense layers and a softmax. The reference computes the same composition on whole arrays. At the
  extended reals the two agree operation by operation: a product by `2⁻⁴` is a quotient by `16`; a product with a
  concatenation splits into the sum of two products (a sum over 256 split at 128 — only the order of a sum changes, so no
  input need be finite); the tiling restricts whole-array functions to row slabs.

  The frames of the word-level kernel and of its idealization are one text, generic in the float family: the body's two
  triples (a point before the last; the last point), and the pipeline's run under an invariant that tracks, for each kept
  table, its agreement with the complete table on the rows written so far. The reference's run is the generated one
  (patched copy). `preserves` is trivial: the ideal pass rewrote nothing.
-/
import proofs.«127706_g9603546873884_cont_9to1c4b_371_2_alg».proof.Defs
import proofs.«127706_g9603546873884_cont_9to1c4b_371_2_alg».proof.Proof.Gen.Kernel
import proofs.«127706_g9603546873884_cont_9to1c4b_371_2_alg».proof.Proof.Gen.KernelIdeal
import proofs.«127706_g9603546873884_cont_9to1c4b_371_2_alg».proof.Proof.Gen.ReferenceIdeal
import proofs.«127706_g9603546873884_cont_9to1c4b_371_2_alg».proof.Proof.Gen.Pre_finite_inputs
import proofs.«127706_g9603546873884_cont_9to1c4b_371_2_alg».proof.Proof.KB.Track
import proofs.«127706_g9603546873884_cont_9to1c4b_371_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Trk.frame m ρ

theorem frame_ki : Cert.frame_KernelIdeal (hKernelIdeal := Cert.KernelIdeal.Gen.facts) (hPre_finite_inputs := Cert.Pre_finite_inputs.Gen.facts) :=
  fun m ρ _ => Cert.KernelIdeal.Trk.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end at the reference's last stage of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Trk.outBlk (F := Ideal) m c Cert.KernelIdeal.Trk.lastPt, Cert.KernelIdeal.Trk.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v42_eq, ((hagree c).1), ((hagree c).2.1), ((hagree c).2.2.1), ((hagree c).2.2.2.1), ((hagree c).2.2.2.2.1), ((hagree c).2.2.2.2.2.1), ((hagree c).2.2.2.2.2.2.1), ((hagree c).2.2.2.2.2.2.2.1), ((hagree c).2.2.2.2.2.2.2.2.1), ((hagree c).2.2.2.2.2.2.2.2.2.1), ((hagree c).2.2.2.2.2.2.2.2.2.2)]
  exact (Cert.Bridge.out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
